-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S50000x512 .f32) (main_arg1 : FVec F S512x512 .f32) (main_arg2 : FVec F S512 .f32) (main_arg3 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S50000x512 : Shape := ⟨2, ![50000, 512]⟩
abbrev S512x512 : Shape := ⟨2, ![512, 512]⟩
abbrev S512 : Shape := ⟨1, ![512]⟩
abbrev S2x1x512 : Shape := ⟨3, ![2, 1, 512]⟩
abbrev S1000x512 : Shape := ⟨2, ![1000, 512]⟩
abbrev S1x1x512 : Shape := ⟨3, ![1, 1, 512]⟩
abbrev S1x512 : Shape := ⟨2, ![1, 512]⟩
abbrev S_ : Shape := ⟨0, ![]⟩
abbrev S32x16 : Shape := ⟨2, ![32, 16]⟩
abbrev S32 : Shape := ⟨1, ![32]⟩

abbrev nBuf : Space → Nat
  | .hbm => 45
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512x512, .bf16⟩
  | .hbm, ⟨6, _⟩ => ⟨S50000x512, .bf16⟩
  | .hbm, ⟨7, _⟩ => ⟨S2x1x512, .f32⟩
  | .hbm, ⟨8, _⟩ => ⟨S2x1x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S32x16, .f32⟩
  | .hbm, ⟨17, _⟩ => ⟨S_, .f32⟩
  | .hbm, ⟨18, _⟩ => ⟨S32, .f32⟩
  | .hbm, ⟨19, _⟩ => ⟨S32x16, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S32x16, .f32⟩
  | .hbm, ⟨36, _⟩ => ⟨S512, .f32⟩
  | .hbm, ⟨37, _⟩ => ⟨S512, .f32⟩
  | .hbm, ⟨38, _⟩ => ⟨S32x16, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S1x512, .f32⟩
  | .hbm, ⟨44, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1000x512, .bf16⟩
  | .local _ .vmem, ⟨4, _⟩ => ⟨S1000x512, .bf16⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1000x512, .bf16⟩
  | .local _ .vmem, ⟨10, _⟩ => ⟨S1000x512, .bf16⟩
  | .local _ .vmem, ⟨11, _⟩ => ⟨S1x512, .f32⟩
  | .local _ .vmem, ⟨12, _⟩ => ⟨S1x512, .f32⟩
  | .local _ .vmem, ⟨13, _⟩ => ⟨S1000x512, .f32⟩
  | .local _ .vmem, ⟨14, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S512x512_S512x512_1_0 : S512x512.Transposes [1, 0] S512x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x1x512_S1x1x512 : S1x1x512.ShapeCasts S1x1x512
  reduces_S1000x512_S512 : S1000x512.Reduces [0] S512
  shapeCasts_S512_S1x512 : S512.ShapeCasts S1x512
  shapeCasts_S1x512_S1x1x512 : S1x512.ShapeCasts S1x1x512
  packedbf16_S1000x512_S1000x512_0_0 : (Rect.unit (s := S1000x512) ![0, 0] S1000x512.size inb_S1000x512_S1000x512_0_0).PackedRows (EltTy.packing .bf16)
  reducesTo_S2x1x512_S512_d0_1 : S2x1x512.ReducesTo [0, 1] S512
  h_S_ : 0 < S_.numel
  shapeCasts_S512_S32x16 : S512.ShapeCasts S32x16
  reducesTo_S32x16_S32_d1 : S32x16.ReducesTo [1] S32
  bcast_S_S32 : S_.BroadcastsInDim S32 (![] : Fin 0 → Fin S32.rank)
  bcast_S32_S32x16_0 : S32.BroadcastsInDim S32x16 (![0] : Fin 1 → Fin S32x16.rank)
  shapeCasts_S32x16_S512 : S32x16.ShapeCasts S512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .bf16 = 32 ∨ (Rect.block (s := S50000x512) S1000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .bf16 = 32 ∨ (Rect.block (s := S50000x512) S1000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S50000x512.size a
  hwx1_3 : ∀ i : grid1.Coords, EltTy.bits .f32 = 32 ∨ (Rect.block (s := S50000x512) S1000x512.size (cc1_transform_3 i) (hinb1_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S_ : Shape := ⟨0, ![]⟩
abbrev S50176x512 : Shape := ⟨2, ![50176, 512]⟩
abbrev S1x512 : Shape := ⟨2, ![1, 512]⟩
abbrev S1024x512 : Shape := ⟨2, ![1024, 512]⟩
abbrev S32x16 : Shape := ⟨2, ![32, 16]⟩
abbrev S32 : Shape := ⟨1, ![32]⟩

abbrev nBuf : Space → Nat
  | .hbm => 43
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S50176x512, .f32⟩
  | .hbm, ⟨7, _⟩ => ⟨S512x512, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x16, .f32⟩
  | .hbm, ⟨14, _⟩ => ⟨S_, .f32⟩
  | .hbm, ⟨15, _⟩ => ⟨S32, .f32⟩
  | .hbm, ⟨16, _⟩ => ⟨S32x16, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32x16, .f32⟩
  | .hbm, ⟨33, _⟩ => ⟨S512, .f32⟩
  | .hbm, ⟨34, _⟩ => ⟨S512, .f32⟩
  | .hbm, ⟨35, _⟩ => ⟨S32x16, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S1x512, .f32⟩
  | .hbm, ⟨41, _⟩ => ⟨S50176x512, .f32⟩
  | .hbm, ⟨42, _⟩ => ⟨S50000x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S50000x512_S50176x512_01760_000 : S50000x512.Pads (![0, 0] : Fin 2 → Nat) ![176, 0] ![0, 0] S50176x512
  h_S_ : 0 < S_.numel
  transposes_S512x512_S512x512_1_0 : S512x512.Transposes [1, 0] S512x512
  inb_S1x512_S1x512_0_0 : ∀ a, (![0, 0] : Fin 2 → Nat) a + S1x512.size a ≤ S1x512.size a
  h_S1x512 : 0 < S1x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  reduces_S1024x512_S512 : S1024x512.Reduces [0] S512
  shapeCasts_S512_S1x512 : S512.ShapeCasts S1x512
  shapeCasts_S1x512_S32x16 : S1x512.ShapeCasts S32x16
  reducesTo_S32x16_S32_d1 : S32x16.ReducesTo [1] S32
  bcast_S_S32 : S_.BroadcastsInDim S32 (![] : Fin 0 → Fin S32.rank)
  bcast_S32_S32x16_0 : S32.BroadcastsInDim S32x16 (![0] : Fin 1 → Fin S32x16.rank)
  shapeCasts_S32x16_S512 : S32x16.ShapeCasts S512
  broadcasts_S1x512_S1024x512 : S1x512.Broadcasts S1024x512
  slices_S50176x512_S50000x512_0_0 : S50176x512.Slices ![0, 0] S50000x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S50176x512.size a
  hwx0_0 : ∀ i : grid0.Coords, EltTy.bits .f32 = 32 ∨ (Rect.block (s := S50176x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S50176x512.size a
  hwx1_0 : ∀ i : grid1.Coords, EltTy.bits .f32 = 32 ∨ (Rect.block (s := S50176x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S50176x512.size a
  hwx1_4 : ∀ i : grid1.Coords, EltTy.bits .f32 = 32 ∨ (Rect.block (s := S50176x512) S1024x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.GroupStats.lean ====
/-
  The specification both programs are read against: a linear layer, group statistics over all rows and
  the channels of a group, a per-channel affine map and a leaky rectifier, over the extended reals.

    lin x wt r ch      = Σ_k x[r,k] · wt[k,ch]              (row r of x read as zero past its last row)
    chanSum x wt ch    = Σ_{r < 50000} lin x wt r ch         chanSq likewise of the squares
    scaleOf, biasOf    = the group statistics' chain: per group g the sums over its 16 channels divided by the
                         count, the variance clamped at zero, its reciprocal root, then per channel
                         scale = γ · inv[g], bias = β − mean[g] · scale
    act y s b          = max z (c · z), z = y · s + b
    result             = act (lin …) scale bias, index by index.

  The chain is stated over the library's host operations with their shape facts as explicit hypotheses
  (a proposition's proofs are all equal, so any two programs' facts give the same term).
-/
import Idealize.ShloMosaic.PureOps.Ideal
import Idealize.ShloMosaic.PureOps.Ideal.Laws
import Idealize.ShloMosaic.Lib.ValueIdx

noncomputable section

namespace GroupStats

open Idealize.ShloMosaic Idealize.ShloMosaic.ValueIdx

abbrev Sh0 : Shape := ⟨0, ![]⟩
abbrev Sh1 (a : Nat) : Shape := ⟨1, ![a]⟩
abbrev Sh2 (a b : Nat) : Shape := ⟨2, ![a, b]⟩
abbrev Sh3 (a b c : Nat) : Shape := ⟨3, ![a, b, c]⟩

/-- Row `r` of an `n × 512` array, read as zero past its last row. -/
def rowz {n : Nat} (x : (Sh2 n 512).Idx → EReal) (r : Nat) (k : Fin 512) : EReal :=
  if h : r < n then x (ix2 ⟨r, h⟩ k) else 0

/-- The linear layer at row `r`, channel `ch`: the row's product with column `ch` of the transposed weights. -/
def lin {n : Nat} (x : (Sh2 n 512).Idx → EReal) (wt : (Sh2 512 512).Idx → EReal) (r : Nat) (ch : Fin 512) : EReal :=
  ∑ k : Fin 512, rowz x r k * wt (ix2 k ch)

/-- The weights transposed. -/
def tr (w : (Sh2 512 512).Idx → EReal) : (Sh2 512 512).Idx → EReal := fun i => w (ix2 (i 1) (i 0))

/-- A channel's sum over all 50000 rows, and the sum of the squares. -/
def chanSum {n : Nat} (x : (Sh2 n 512).Idx → EReal) (wt : (Sh2 512 512).Idx → EReal) (ch : Fin 512) : EReal :=
  ∑ r ∈ Finset.range 50000, lin x wt r ch
def chanSq {n : Nat} (x : (Sh2 n 512).Idx → EReal) (wt : (Sh2 512 512).Idx → EReal) (ch : Fin 512) : EReal :=
  ∑ r ∈ Finset.range 50000, lin x wt r ch * lin x wt r ch

/-- One half's share: the 25 blocks of 1000 rows from block `25 · half` on. -/
def partSum {n : Nat} (x : (Sh2 n 512).Idx → EReal) (wt : (Sh2 512 512).Idx → EReal) (half : Nat) (ch : Fin 512) : EReal :=
  ∑ s ∈ Finset.range 25, ∑ r ∈ Finset.range 1000, lin x wt (1000 * (25 * half + s) + r) ch
def partSq {n : Nat} (x : (Sh2 n 512).Idx → EReal) (wt : (Sh2 512 512).Idx → EReal) (half : Nat) (ch : Fin 512) : EReal :=
  ∑ s ∈ Finset.range 25, ∑ r ∈ Finset.range 1000,
    lin x wt (1000 * (25 * half + s) + r) ch * lin x wt (1000 * (25 * half + s) + r) ch

/-- The 49 blocks of 1024 rows. -/
def blockSum {n : Nat} (x : (Sh2 n 512).Idx → EReal) (wt : (Sh2 512 512).Idx → EReal) (ch : Fin 512) : EReal :=
  ∑ t ∈ Finset.range 49, ∑ r ∈ Finset.range 1024, lin x wt (1024 * t + r) ch
def blockSq {n : Nat} (x : (Sh2 n 512).Idx → EReal) (wt : (Sh2 512 512).Idx → EReal) (ch : Fin 512) : EReal :=
  ∑ t ∈ Finset.range 49, ∑ r ∈ Finset.range 1024, lin x wt (1024 * t + r) ch * lin x wt (1024 * t + r) ch

/-- 512 channels laid out as 32 groups of 16. -/
def grp (f : Fin 512 → EReal) : FVec Ideal (Sh2 32 16) .f32 := fun g =>
  f ⟨16 * (g 0).val + (g 1).val, by have h0 : (g 0).val < 32 := (g 0).isLt; have h1 : (g 1).val < 16 := (g 1).isLt; omega⟩

/-- The shape facts the chain's host operations take. -/
structure Wit : Prop where
  red : (Sh2 32 16).ReducesTo [1] (Sh1 32)
  pos : 0 < Sh0.numel
  b0 : Sh0.BroadcastsInDim (Sh1 32) (![] : Fin 0 → Fin (Sh1 32).rank)
  b1 : (Sh1 32).BroadcastsInDim (Sh2 32 16) (![0] : Fin 1 → Fin (Sh2 32 16).rank)
  c1 : (Sh2 32 16).ShapeCasts (Sh1 512)
  c2 : (Sh1 512).ShapeCasts (Sh2 1 512)

/-- The group statistics' chain up to the per-channel scale: group sums over the 16 channels, mean and mean square
    by the count `50000 · 16`, the variance clamped at zero, its reciprocal root (with the programs' ε), spread back over
    the channels and multiplied by γ. -/
def scale512 (W : Wit) (s q : FVec Ideal (Sh2 32 16) .f32) (gamma : FVec Ideal (Sh1 512) .f32) : FVec Ideal (Sh1 512) .f32 :=
  let cnt : FVec Ideal Sh0 .f32 := mulf (constant (F := Ideal) Sh0 .f32 0x47435000#32) (constant (F := Ideal) Sh0 .f32 0x41800000#32)
  let gs : FVec Ideal (Sh1 32) .f32 := Host.reduceAdd s (constant (F := Ideal) Sh0 .f32 0x00000000#32) W.red W.pos
  let gq : FVec Ideal (Sh1 32) .f32 := Host.reduceAdd q (constant (F := Ideal) Sh0 .f32 0x00000000#32) W.red W.pos
  let mean : FVec Ideal (Sh1 32) .f32 := Host.divf gs (broadcastInDim (Sh1 32) ![] W.b0 cnt)
  let msq : FVec Ideal (Sh1 32) .f32 := Host.divf gq (broadcastInDim (Sh1 32) ![] W.b0 cnt)
  let var : FVec Ideal (Sh1 32) .f32 := maximumf (subf msq (mulf mean mean))
    (broadcastInDim (Sh1 32) ![] W.b0 (constant (F := Ideal) Sh0 .f32 0x00000000#32))
  let inv : FVec Ideal (Sh1 32) .f32 := Host.rsqrt (addf var (broadcastInDim (Sh1 32) ![] W.b0 (constant (F := Ideal) Sh0 .f32 0x3727C5AC#32)))
  mulf gamma (shapeCast (Sh1 512) (broadcastInDim (Sh2 32 16) ![0] W.b1 inv) W.c1)

/-- The group means spread back over the channels. -/
def mean512 (W : Wit) (s : FVec Ideal (Sh2 32 16) .f32) : FVec Ideal (Sh1 512) .f32 :=
  let cnt : FVec Ideal Sh0 .f32 := mulf (constant (F := Ideal) Sh0 .f32 0x47435000#32) (constant (F := Ideal) Sh0 .f32 0x41800000#32)
  let gs : FVec Ideal (Sh1 32) .f32 := Host.reduceAdd s (constant (F := Ideal) Sh0 .f32 0x00000000#32) W.red W.pos
  let mean : FVec Ideal (Sh1 32) .f32 := Host.divf gs (broadcastInDim (Sh1 32) ![] W.b0 cnt)
  shapeCast (Sh1 512) (broadcastInDim (Sh2 32 16) ![0] W.b1 mean) W.c1

/-- The per-channel scale and bias as the `1 × 512` rows the second pass reads. -/
def scaleOf (W : Wit) (s q : FVec Ideal (Sh2 32 16) .f32) (gamma : FVec Ideal (Sh1 512) .f32) : FVec Ideal (Sh2 1 512) .f32 :=
  shapeCast (Sh2 1 512) (scale512 W s q gamma) W.c2
def biasOf (W : Wit) (s q : FVec Ideal (Sh2 32 16) .f32) (gamma beta : FVec Ideal (Sh1 512) .f32) : FVec Ideal (Sh2 1 512) .f32 :=
  shapeCast (Sh2 1 512) (subf beta (mulf (mean512 W s) (scale512 W s q gamma))) W.c2

/-- The affine map and the leaky rectifier at one element. -/
def act (y sc bi : EReal) : EReal :=
  max (y * sc + bi) (Ideal.ofBits .f32 0x3DCCCCCD#32 * (y * sc + bi))

/-- The whole computation, index by index, from the transposed weights. -/
def resultT (W : Wit) (x : (Sh2 50000 512).Idx → EReal) (wt : (Sh2 512 512).Idx → EReal)
    (gamma beta : (Sh1 512).Idx → EReal) : (Sh2 50000 512).Idx → EReal := fun i =>
  act (lin x wt (i 0).val (i 1))
    (scaleOf W (grp (chanSum x wt)) (grp (chanSq x wt)) gamma (ix2 0 (i 1)))
    (biasOf W (grp (chanSum x wt)) (grp (chanSq x wt)) gamma beta (ix2 0 (i 1)))

/-- The whole computation from the weights as given (`out × in`). -/
def result (W : Wit) (x : (Sh2 50000 512).Idx → EReal) (w : (Sh2 512 512).Idx → EReal)
    (gamma beta : (Sh1 512).Idx → EReal) : (Sh2 50000 512).Idx → EReal :=
  resultT W x (tr w) gamma beta

end GroupStats

end
-- ==== Proof.KStats.lean ====
/-
  The first pass of the kernel, read as values over the extended reals.

  The pass runs over 50 points; point `t` takes rows `1000 t … 1000 t + 999` of the rows array and the whole of the
  transposed weights. It leaves three arrays:

    * the product array: at point `t` the block `x_t · wt`, so row `1000 t + r`, channel `ch` holds
      `lin x wt (1000 t + r) ch = Σ_k x[1000 t + r, k] · wt[k, ch]` — every point writes its block back and the 50 blocks tile
      the 50000 rows (`arr_y`);
    * the two accumulator arrays, one `1 × 1 × 512` block per half of the grid (block `t / 25`): at the first point of a
      half (`t % 25 = 0`) the block is reset to the zero row and the point's column sums `Σ_r lin …` (of the squares for
      the second array) are added; at every other point they are added to what the point before left. After point `t` the
      block therefore holds `0 + Σ_{s ≤ t % 25} Σ_r lin x wt (1000 (25 (t / 25) + s) + r) ch`; it is written back once,
      after the half's last point `t % 25 = 24`, where that is `partSum x wt (t / 25) ch` (`partSq` for the squares)
      (`arr_sum`, `arr_sq`).

  The order: what each control case leaves in each output's staging buffer, as the body's payloads; the payloads at an index
  (the product by re-indexing the contraction, the column sums as a sum over the block's rows, the format changes the
  identity); the blocks the body reads, as rows of the arrays; the product array; the fold over a half; the accumulator
  arrays.
-/
import proofs.«170566_g2000506936419697_pallasbulk_901_2_alg».proof.Proof.Gen.KernelIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Stats

open Cert.KernelIdeal Cert.KernelIdeal.Gen GroupStats Idealize.ShloMosaic.ValueIdx

variable (V : (c : Dev nD) → (b : Ref sig .tc) → Buf (Elt Ideal) ((c : Thread nD τ).loc b))

/-- The rows array and the transposed weights as the first pass finds them. -/
abbrev xin (c : Dev nD) : (Sh2 50000 512).Idx → EReal := V c main_arg0
abbrev wtin (c : Dev nD) : (Sh2 512 512).Idx → EReal := V c main_v1

/-! ## What each case leaves in each output's staging buffer, as the body's payloads -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point of a half the product block is stored as it is computed, -/
theorem out_B_2 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : ¬cond0_0 i) (x0 : Vec F S1000x512 .f32) (x1 : Vec F S512x512 .bf16) (xo3 xo4 : Vec F S1x1x512 .f32) :
    out0_B_2 c i a2 h2 a3 h3 a4 h4 a5 h5 a6 h6 hc x0 x1 xo3 xo4 = k0_pay6 x0 x1 := by
  unfold out0_B_2
  rw [View.read_writes_eq_canon _ _ _ (cover0_B_2 c i a2 h2 a3 h3 a4 h4 a5 h5 a6 h6 hc x0 x1 xo3 xo4)]
  unfold kernelRun0_B
  dsimp only
  sl_unfold_words
  rw [View.canon_unit_zero (S := S1000x512) hz2]
  simp only [View.readAt_eq_ld, h2.read_unread, h3.read_unread, View.ld_unit_zero (S := S1000x512) hz2, View.ld_unit_zero (S := S512x512) hz2]

/-- the column sums are added to the running sums, -/
theorem out_B_3 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : ¬cond0_0 i) (x0 : Vec F S1000x512 .f32) (x1 : Vec F S512x512 .bf16) (xo3 xo4 : Vec F S1x1x512 .f32) :
    out0_B_3 c i a2 h2 a3 h3 a4 h4 a5 h5 a6 h6 hc x0 x1 xo3 xo4 = k0_pay4 x0 x1 xo3 := by
  unfold out0_B_3
  rw [View.read_writes_eq_canon _ _ _ (cover0_B_3 c i a2 h2 a3 h3 a4 h4 a5 h5 a6 h6 hc x0 x1 xo3 xo4)]
  unfold kernelRun0_B
  dsimp only
  sl_unfold_words
  rw [View.canon_unit_zero (S := S1x1x512) hz3]
  simp only [View.readAt_eq_ld, h2.read_unread, h3.read_unread, h5.read_unread, View.ld_unit_zero (S := S1000x512) hz2, View.ld_unit_zero (S := S512x512) hz2, View.ld_unit_zero (S := S1x1x512) hz3]

/-- and the column sums of the squares to theirs. -/
theorem out_B_4 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : ¬cond0_0 i) (x0 : Vec F S1000x512 .f32) (x1 : Vec F S512x512 .bf16) (xo3 xo4 : Vec F S1x1x512 .f32) :
    out0_B_4 c i a2 h2 a3 h3 a4 h4 a5 h5 a6 h6 hc x0 x1 xo3 xo4 = k0_pay5 x0 x1 xo4 := by
  unfold out0_B_4
  rw [View.read_writes_eq_canon _ _ _ (cover0_B_4 c i a2 h2 a3 h3 a4 h4 a5 h5 a6 h6 hc x0 x1 xo3 xo4)]
  unfold kernelRun0_B
  dsimp only
  sl_unfold_words
  rw [View.canon_unit_zero (S := S1x1x512) hz3]
  simp only [View.readAt_eq_ld, h2.read_unread, h3.read_unread, h6.read_unread, View.ld_unit_zero (S := S1000x512) hz2, View.ld_unit_zero (S := S512x512) hz2, View.ld_unit_zero (S := S1x1x512) hz3]

/-- At the first point of a half the product block is stored the same way, -/
theorem out_A_2 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : cond0_0 i) (x0 : Vec F S1000x512 .f32) (x1 : Vec F S512x512 .bf16) :
    out0_A_2 c i a2 h2 a3 h3 a4 h4 a5 h5 a6 h6 hc x0 x1 = k0_pay6 x0 x1 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero (S := S1000x512) hz2]
  simp only [View.readAt_eq_ld, h2.read_unread, h3.read_unread, View.ld_unit_zero (S := S1000x512) hz2, View.ld_unit_zero (S := S512x512) hz2]

/-- the running sums are first reset to the zero row, then added to, -/
theorem out_A_3 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : cond0_0 i) (x0 : Vec F S1000x512 .f32) (x1 : Vec F S512x512 .bf16) :
    out0_A_3 c i a2 h2 a3 h3 a4 h4 a5 h5 a6 h6 hc x0 x1 = k0_pay4 x0 x1 (k0_pay1 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, View.ld_unit_zero (S := S1000x512) hz2, View.ld_unit_zero (S := S512x512) hz2]

/-- and so are the running sums of the squares. -/
theorem out_A_4 (c : Dev nD) (i : grid0.Coords) (a2 : Memref sig .tc .vmem S1000x512 .f32) (h2 : a2.IsWhole) (a3 : Memref sig .tc .vmem S512x512 .bf16) (h3 : a3.IsWhole) (a4 : Memref sig .tc .vmem S1000x512 .bf16) (h4 : a4.IsWhole) (a5 : Memref sig .tc .vmem S1x1x512 .f32) (h5 : a5.IsWhole) (a6 : Memref sig .tc .vmem S1x1x512 .f32) (h6 : a6.IsWhole) (hc : cond0_0 i) (x0 : Vec F S1000x512 .f32) (x1 : Vec F S512x512 .bf16) :
    out0_A_4 c i a2 h2 a3 h3 a4 h4 a5 h5 a6 h6 hc x0 x1 = k0_pay5 x0 x1 (k0_pay2 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, View.ld_unit_zero (S := S1000x512) hz2, View.ld_unit_zero (S := S512x512) hz2]

end Pieces

/-! ## The payloads at an index, over the extended reals -/

/-- The product block at row `r`, channel `ch`: the row's product with the weights' column. -/
theorem pay3_apply (x : S1000x512.Idx → EReal) (w : S512x512.Idx → EReal) (r : Fin 1000) (ch : Fin 512) :
    k0_pay3 (F := Ideal) x w (ix2 r ch) = ∑ k : Fin 512, x (ix2 r k) * w (ix2 k ch) := by
  unfold k0_pay3
  refine (Ideal.matmul_constant_zero_apply dot_S1000x512_S512x512_S1000x512_1_0_0_1_n_n none _ _ (ix2 r ch)).trans ?_
  rw [← Equiv.sum_comp (contrEquiv1 dot_S1000x512_S512x512_S1000x512_1_0_0_1_n_n 512 rfl rfl).symm]
  refine Finset.sum_congr rfl fun k _ => ?_
  have ck := contrEquiv1_symm_val dot_S1000x512_S512x512_S1000x512_1_0_0_1_n_n 512 rfl rfl k
  have l2 : (dot_S1000x512_S512x512_S1000x512_1_0_0_1_n_n).lhsIdx (ix2 r ch) ((contrEquiv1 dot_S1000x512_S512x512_S1000x512_1_0_0_1_n_n 512 rfl rfl).symm k) = ix2 r k := by
    funext ax; apply Fin.ext
    match ax with
    | ⟨0, _⟩ => simp [DotDims.lhsIdx, dot_S1000x512_S512x512_S1000x512_1_0_0_1_n_n]; rfl
    | ⟨1, _⟩ => simp [DotDims.lhsIdx, dot_S1000x512_S512x512_S1000x512_1_0_0_1_n_n]; exact ck
  have r2 : (dot_S1000x512_S512x512_S1000x512_1_0_0_1_n_n).rhsIdx (ix2 r ch) ((contrEquiv1 dot_S1000x512_S512x512_S1000x512_1_0_0_1_n_n 512 rfl rfl).symm k) = ix2 k ch := by
    funext ax; apply Fin.ext
    match ax with
    | ⟨0, _⟩ => simp [DotDims.rhsIdx, dot_S1000x512_S512x512_S1000x512_1_0_0_1_n_n]; exact ck
    | ⟨1, _⟩ => simp [DotDims.rhsIdx, dot_S1000x512_S512x512_S1000x512_1_0_0_1_n_n]; rfl
  rw [l2, r2, shapeCast_self]
  rfl

/-- The stored product block is the product block (a format change is the identity on the extended reals). -/
theorem pay6_apply (x : S1000x512.Idx → EReal) (w : S512x512.Idx → EReal) (r : Fin 1000) (ch : Fin 512) :
    k0_pay6 (F := Ideal) x w (ix2 r ch) = ∑ k : Fin 512, x (ix2 r k) * w (ix2 k ch) :=
  (pay3_apply x w r ch)

/-- The updated running sums: what was there plus the block's column sums. -/
theorem pay4_apply (x : S1000x512.Idx → EReal) (w : S512x512.Idx → EReal) (acc : S1x1x512.Idx → EReal) (a b : Fin 1) (ch : Fin 512) :
    k0_pay4 (F := Ideal) x w acc (ix3 a b ch) = acc (ix3 a b ch) + ∑ r : Fin 1000, k0_pay3 (F := Ideal) x w (ix2 r ch) := by
  unfold k0_pay4
  refine (addf_apply _ _ (ix3 a b ch)).trans ?_
  rw [shapeCast_self]
  refine congrArg (acc (ix3 a b ch) + ·) ?_
  refine (shapeCast_addUnit_apply ![1, 512] _ _ (ix3 a b ch)).trans ?_
  refine (shapeCast_addUnit_apply ![512] _ _ _).trans ?_
  refine (Ideal.multiReduction_add_single (a := 0) _ _ reduces_S1000x512_S512 _ _ _).trans ?_
  refine Finset.sum_congr rfl fun r _ => ?_
  refine congrArg (k0_pay3 (F := Ideal) x w) ?_
  funext ax; apply Fin.ext
  match ax with
  | ⟨0, _⟩ => rfl
  | ⟨1, _⟩ => rfl

/-- The updated running sums of squares: what was there plus the column sums of the block's squares. -/
theorem pay5_apply (x : S1000x512.Idx → EReal) (w : S512x512.Idx → EReal) (acc : S1x1x512.Idx → EReal) (a b : Fin 1) (ch : Fin 512) :
    k0_pay5 (F := Ideal) x w acc (ix3 a b ch)
      = acc (ix3 a b ch) + ∑ r : Fin 1000, k0_pay3 (F := Ideal) x w (ix2 r ch) * k0_pay3 (F := Ideal) x w (ix2 r ch) := by
  unfold k0_pay5
  refine (addf_apply _ _ (ix3 a b ch)).trans ?_
  rw [shapeCast_self]
  refine congrArg (acc (ix3 a b ch) + ·) ?_
  refine (shapeCast_addUnit_apply ![1, 512] _ _ (ix3 a b ch)).trans ?_
  refine (shapeCast_addUnit_apply ![512] _ _ _).trans ?_
  refine (Ideal.multiReduction_add_single (a := 0) _ _ reduces_S1000x512_S512 _ _ _).trans ?_
  refine Finset.sum_congr rfl fun r _ => ?_
  refine (mulf_apply _ _ _).trans ?_
  have e : (reduces_S1000x512_S512.lift (fun a' : Fin 1 => (fun a'' : Fin 2 => (ix3 a b ch : S1x1x512.Idx) a''.succ) a'.succ) r : S1000x512.Idx) = ix2 r ch := by
    funext ax; apply Fin.ext
    match ax with
    | ⟨0, _⟩ => rfl
    | ⟨1, _⟩ => rfl
  rw [e]
  rfl

/-! ## The blocks the body reads, over the arrays as the first pass finds them -/

theorem N50 : cfg0.N = 50 := N_0

/-- Point `t` reads block row `t` of the rows array and the whole of the weights. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
/-- It writes block row `t` of the product array, and block `t / 25` of each accumulator array. -/
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = t.val / 25 ∧ win0_3.index t 1 = 0 ∧ win0_3.index t 2 = 0 :=
  (by decide +kernel : ∀ t : Fin grid0.N, win0_3.index t 0 = t.val / 25 ∧ win0_3.index t 1 = 0 ∧ win0_3.index t 2 = 0)
theorem idx0_4 : ∀ t : Fin cfg0.N, win0_4.index t 0 = t.val / 25 ∧ win0_4.index t 1 = 0 ∧ win0_4.index t 2 = 0 :=
  (by decide +kernel : ∀ t : Fin grid0.N, win0_4.index t 0 = t.val / 25 ∧ win0_4.index t 1 = 0 ∧ win0_4.index t 2 = 0)

/-- The rows block and the weights block at point `t`, at their literal types. -/
abbrev xblk (c : Dev nD) (t : Fin cfg0.N) : S1000x512.Idx → EReal := iblk0 (F := Ideal) V c 0 t
abbrev wblk (c : Dev nD) (t : Fin cfg0.N) : S512x512.Idx → EReal := iblk0 (F := Ideal) V c 1 t

theorem xblk_apply (c : Dev nD) (t : Fin cfg0.N) (r : Fin 1000) (k : Fin 512) :
    xblk V c t (ix2 r k) = rowz (xin V c) (1000 * t.val + r.val) k := by
  have hN : t.val < 50 := lt_of_lt_of_eq t.isLt N50
  have hr : r.val < 1000 := r.isLt
  have hlt : 1000 * t.val + r.val < 50000 := by omega
  unfold rowz
  rw [dif_pos hlt]
  show ((cfg0.win 0).blk t).view.read (Elt Ideal) (V c main_arg0) (ix2 r k) = V c main_arg0 (ix2 ⟨1000 * t.val + r.val, hlt⟩ k)
  rw [View.read_apply]
  show V c main_arg0 _ = V c main_arg0 _
  congr 1
  funext a
  apply Fin.ext
  match a with
  | ⟨0, _⟩ => show win0_0.index t 0 * 1000 + 1 * r.val = 1000 * t.val + r.val; rw [(idx0_0 t).1]; omega
  | ⟨1, _⟩ => show win0_0.index t 1 * 512 + 1 * k.val = k.val; rw [(idx0_0 t).2]; omega

theorem wblk_apply (c : Dev nD) (t : Fin cfg0.N) (k ch : Fin 512) :
    wblk V c t (ix2 k ch) = wtin V c (ix2 k ch) := by
  show ((cfg0.win 1).blk t).view.read (Elt Ideal) (V c main_v1) (ix2 k ch) = V c main_v1 (ix2 k ch)
  rw [View.read_apply]
  show V c main_v1 _ = V c main_v1 _
  congr 1
  funext a
  apply Fin.ext
  match a with
  | ⟨0, _⟩ => show win0_1.index t 0 * 512 + 1 * k.val = k.val; rw [(idx0_1 t).1]; omega
  | ⟨1, _⟩ => show win0_1.index t 1 * 512 + 1 * ch.val = ch.val; rw [(idx0_1 t).2]; omega

/-- So the product block at point `t` is the linear layer on rows `1000 t …`. -/
theorem pay3_blk (c : Dev nD) (t : Fin cfg0.N) (r : Fin 1000) (ch : Fin 512) :
    k0_pay3 (F := Ideal) (xblk V c t) (wblk V c t) (ix2 r ch) = lin (xin V c) (wtin V c) (1000 * t.val + r.val) ch := by
  refine (pay3_apply (xblk V c t) (wblk V c t) r ch).trans ?_
  unfold lin
  refine Finset.sum_congr rfl fun k _ => ?_
  rw [xblk_apply, wblk_apply]

/-! ## The product array -/

theorem lin_congr {n : Nat} (x : (Sh2 n 512).Idx → EReal) (wt : (Sh2 512 512).Idx → EReal) {a a' : Nat} {ch ch' : Fin 512}
    (ha : a = a') (hc : ch = ch') : lin x wt a ch = lin x wt a' ch' := by subst ha hc; rfl

/-- Every point leaves the product of its rows block with the weights in the product's staging buffer. -/
theorem y_block (c : Dev nD) (t : Fin cfg0.N) :
    (outsAt0 (F := Ideal) V c t.val t.isLt).1 = k0_pay6 (F := Ideal) (xblk V c t) (wblk V c t) := by
  by_cases h0 : t.val % 25 = 0
  · rw [outsAt0_A V c t h0]
    dsimp only
    exact out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (wblk V c t)
  · rw [outsAt0_B V c t h0]
    dsimp only
    exact out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (wblk V c t)
      (outsAt0 (F := Ideal) V c (t.val - 1) (Nat.lt_of_le_of_lt (Nat.sub_le _ _) t.isLt)).2.1
      (outsAt0 (F := Ideal) V c (t.val - 1) (Nat.lt_of_le_of_lt (Nat.sub_le _ _) t.isLt)).2.2

/-- The linear layer as an array. -/
abbrev yarr (c : Dev nD) : (Sh2 50000 512).Idx → EReal := fun i => lin (xin V c) (wtin V c) (i 0).val (i 1)

theorem flushed_y (c : Dev nD) (t : Fin cfg0.N) (hf : (cfg0.win 2).flush t = true) :
    (dat0 (F := Ideal) V c).flushed 2 t = ((cfg0.win 2).blk t).view.read (Elt Ideal) (yarr V c) := by
  show (cfg0.win 2).cut (grid0.coords t) ((dat0 (F := Ideal) V c).after 2 t) = _
  rw [after0_2, y_block]
  funext j
  obtain ⟨r, ch, rfl⟩ : ∃ (r : Fin 1000) (ch : Fin 512), j = ix2 r ch := ⟨j 0, j 1, eq_ix2 j⟩
  refine (pay3_blk V c t r ch).trans ?_
  rw [View.read_apply]
  refine lin_congr (xin V c) (wtin V c) ?_ (Fin.ext ?_)
  · show 1000 * t.val + r.val = win0_2.index t 0 * 1000 + 1 * r.val
    rw [(idx0_2 t).1]; omega
  · show ch.val = win0_2.index t 1 * 512 + 1 * ch.val
    rw [(idx0_2 t).2]; omega

theorem arr_y (c : Dev nD) :
    (dat0 (F := Ideal) V c).arrAt 2 cfg0.N = fun i : (Sh2 50000 512).Idx => lin (xin V c) (wtin V c) (i 0).val (i 1) :=
  (dat0 (F := Ideal) V c).arrAt_eq_of_cover 2 (yarr V c) (flushed_y V c) fun i => by
    have h0 : (i 0).val < 50000 := (i 0).isLt
    have h1 : (i 1).val < 512 := (i 1).isLt
    have ht : (i 0).val / 1000 < cfg0.N := by rw [N50]; omega
    refine ⟨⟨(i 0).val / 1000, ht⟩, flush0_2 _, ?_⟩
    show i ∈ ((View.whole main_v2_0).slice (win0_2.rect ⟨(i 0).val / 1000, ht⟩)).set
    rw [View.set_slice_whole, Rect.mem_set_unit]
    intro a
    match a with
    | ⟨0, _⟩ =>
      show win0_2.index ⟨(i 0).val / 1000, ht⟩ 0 * 1000 ≤ (i 0).val
        ∧ (i 0).val < win0_2.index ⟨(i 0).val / 1000, ht⟩ 0 * 1000 + 1000
      rw [(idx0_2 ⟨(i 0).val / 1000, ht⟩).1]
      show (i 0).val / 1000 * 1000 ≤ (i 0).val ∧ (i 0).val < (i 0).val / 1000 * 1000 + 1000
      omega
    | ⟨1, _⟩ =>
      show win0_2.index ⟨(i 0).val / 1000, ht⟩ 1 * 512 ≤ (i 1).val
        ∧ (i 1).val < win0_2.index ⟨(i 0).val / 1000, ht⟩ 1 * 512 + 512
      rw [(idx0_2 ⟨(i 0).val / 1000, ht⟩).2]
      omega

/-! ## The accumulators: the fold over a half's 25 points -/

theorem pay1_apply (i : S1x1x512.Idx) : k0_pay1 (F := Ideal) i = 0 := by
  show Ideal.ofBits .f32 0x00000000#32 = 0
  exact Ideal.ofBits_zero_f32
theorem pay2_apply (i : S1x1x512.Idx) : k0_pay2 (F := Ideal) i = 0 := by
  show Ideal.ofBits .f32 0x00000000#32 = 0
  exact Ideal.ofBits_zero_f32

/-- Block `n`'s share of a channel's sum, and of its sum of squares. -/
abbrev addSum (c : Dev nD) (n : Nat) (i : S1x1x512.Idx) : EReal :=
  ∑ r ∈ Finset.range 1000, lin (xin V c) (wtin V c) (1000 * n + r) (i 2)
abbrev addSq (c : Dev nD) (n : Nat) (i : S1x1x512.Idx) : EReal :=
  ∑ r ∈ Finset.range 1000, lin (xin V c) (wtin V c) (1000 * n + r) (i 2) * lin (xin V c) (wtin V c) (1000 * n + r) (i 2)

/-- A point adds its block's share to the running sums, -/
theorem pay4_blk (c : Dev nD) (t : Fin cfg0.N) (acc : S1x1x512.Idx → EReal) (i : S1x1x512.Idx) :
    k0_pay4 (F := Ideal) (xblk V c t) (wblk V c t) acc i = acc i + addSum V c t.val i := by
  obtain ⟨a, b, ch, rfl⟩ : ∃ (a b : Fin 1) (ch : Fin 512), i = ix3 a b ch := ⟨i 0, i 1, i 2, eq_ix3 i⟩
  rw [pay4_apply]
  refine congrArg (acc (ix3 a b ch) + ·) ?_
  show _ = ∑ r ∈ Finset.range 1000, lin (xin V c) (wtin V c) (1000 * t.val + r) ch
  rw [Finset.sum_range]
  exact Finset.sum_congr rfl fun r _ => pay3_blk V c t r ch

/-- and to the running sums of squares. -/
theorem pay5_blk (c : Dev nD) (t : Fin cfg0.N) (acc : S1x1x512.Idx → EReal) (i : S1x1x512.Idx) :
    k0_pay5 (F := Ideal) (xblk V c t) (wblk V c t) acc i = acc i + addSq V c t.val i := by
  obtain ⟨a, b, ch, rfl⟩ : ∃ (a b : Fin 1) (ch : Fin 512), i = ix3 a b ch := ⟨i 0, i 1, i 2, eq_ix3 i⟩
  rw [pay5_apply]
  refine congrArg (acc (ix3 a b ch) + ·) ?_
  show _ = ∑ r ∈ Finset.range 1000, lin (xin V c) (wtin V c) (1000 * t.val + r) ch * lin (xin V c) (wtin V c) (1000 * t.val + r) ch
  rw [Finset.sum_range]
  exact Finset.sum_congr rfl fun r _ => by rw [pay3_blk V c t r ch]

/-- The running sums reset at the first point of a half (`t % 25 = 0`) and step from the point before elsewhere. -/
theorem sum_reset (c : Dev nD) (n : Nat) (h : n < cfg0.N) (hn : n % 25 = 0) :
    (outsAt0 (F := Ideal) V c n h).2.1 = k0_pay4 (F := Ideal) (xblk V c ⟨n, h⟩) (wblk V c ⟨n, h⟩) (k0_pay1 (F := Ideal)) := by
  rw [outsAt0_A V c ⟨n, h⟩ hn]
  dsimp only
  exact out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (xblk V c ⟨n, h⟩) (wblk V c ⟨n, h⟩)

theorem sum_step (c : Dev nD) (n : Nat) (h : n + 1 < cfg0.N) (hn : ¬(n + 1) % 25 = 0) :
    (outsAt0 (F := Ideal) V c (n + 1) h).2.1
      = k0_pay4 (F := Ideal) (xblk V c ⟨n + 1, h⟩) (wblk V c ⟨n + 1, h⟩) (outsAt0 (F := Ideal) V c n (Nat.lt_of_succ_lt h)).2.1 := by
  rw [outsAt0_B V c ⟨n + 1, h⟩ hn]
  dsimp only
  exact out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (xblk V c ⟨n + 1, h⟩) (wblk V c ⟨n + 1, h⟩)
    (outsAt0 (F := Ideal) V c n (Nat.lt_of_succ_lt h)).2.1 (outsAt0 (F := Ideal) V c n (Nat.lt_of_succ_lt h)).2.2

theorem sq_reset (c : Dev nD) (n : Nat) (h : n < cfg0.N) (hn : n % 25 = 0) :
    (outsAt0 (F := Ideal) V c n h).2.2 = k0_pay5 (F := Ideal) (xblk V c ⟨n, h⟩) (wblk V c ⟨n, h⟩) (k0_pay2 (F := Ideal)) := by
  rw [outsAt0_A V c ⟨n, h⟩ hn]
  dsimp only
  exact out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (xblk V c ⟨n, h⟩) (wblk V c ⟨n, h⟩)

theorem sq_step (c : Dev nD) (n : Nat) (h : n + 1 < cfg0.N) (hn : ¬(n + 1) % 25 = 0) :
    (outsAt0 (F := Ideal) V c (n + 1) h).2.2
      = k0_pay5 (F := Ideal) (xblk V c ⟨n + 1, h⟩) (wblk V c ⟨n + 1, h⟩) (outsAt0 (F := Ideal) V c n (Nat.lt_of_succ_lt h)).2.2 := by
  rw [outsAt0_B V c ⟨n + 1, h⟩ hn]
  dsimp only
  exact out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (xblk V c ⟨n + 1, h⟩) (wblk V c ⟨n + 1, h⟩)
    (outsAt0 (F := Ideal) V c n (Nat.lt_of_succ_lt h)).2.1 (outsAt0 (F := Ideal) V c n (Nat.lt_of_succ_lt h)).2.2

/-- So after point `t` the running sums hold the shares of the half's blocks up to `t`. -/
theorem sum_at (c : Dev nD) (t : Fin cfg0.N) (i : S1x1x512.Idx) :
    (outsAt0 (F := Ideal) V c t.val t.isLt).2.1 i = ∑ s ∈ Finset.range (t.val % 25 + 1), addSum V c (25 * (t.val / 25) + s) i := by
  have h' : 25 * (t.val / 25) + t.val % 25 < cfg0.N := by rw [Nat.div_add_mod]; exact t.isLt
  have hm : t.val % 25 < 25 := Nat.mod_lt _ (by decide)
  have e := Pipeline.eq_accAt_of_mod (N := cfg0.N) (fun n h => (outsAt0 (F := Ideal) V c n h).2.1) 25
    (fun n h => k0_pay4 (F := Ideal) (xblk V c ⟨n, h⟩) (wblk V c ⟨n, h⟩) (k0_pay1 (F := Ideal)))
    (fun n h acc => k0_pay4 (F := Ideal) (xblk V c ⟨n, h⟩) (wblk V c ⟨n, h⟩) acc)
    (sum_reset V c) (sum_step V c) (by decide) t.val t.isLt h'
  refine (congrFun e i).trans ?_
  refine (Pipeline.accAt_add_apply _ _ (fun _ => (0 : EReal)) (fun n i => addSum V c n i) (25 * (t.val / 25)) 24
    (fun h i => by rw [pay4_blk V c ⟨_, h⟩ _ i, pay1_apply])
    (fun n h acc i _ _ => pay4_blk V c ⟨n, h⟩ acc i) (t.val % 25) (by omega) h' i).trans ?_
  exact zero_add _

theorem sq_at (c : Dev nD) (t : Fin cfg0.N) (i : S1x1x512.Idx) :
    (outsAt0 (F := Ideal) V c t.val t.isLt).2.2 i = ∑ s ∈ Finset.range (t.val % 25 + 1), addSq V c (25 * (t.val / 25) + s) i := by
  have h' : 25 * (t.val / 25) + t.val % 25 < cfg0.N := by rw [Nat.div_add_mod]; exact t.isLt
  have hm : t.val % 25 < 25 := Nat.mod_lt _ (by decide)
  have e := Pipeline.eq_accAt_of_mod (N := cfg0.N) (fun n h => (outsAt0 (F := Ideal) V c n h).2.2) 25
    (fun n h => k0_pay5 (F := Ideal) (xblk V c ⟨n, h⟩) (wblk V c ⟨n, h⟩) (k0_pay2 (F := Ideal)))
    (fun n h acc => k0_pay5 (F := Ideal) (xblk V c ⟨n, h⟩) (wblk V c ⟨n, h⟩) acc)
    (sq_reset V c) (sq_step V c) (by decide) t.val t.isLt h'
  refine (congrFun e i).trans ?_
  refine (Pipeline.accAt_add_apply _ _ (fun _ => (0 : EReal)) (fun n i => addSq V c n i) (25 * (t.val / 25)) 24
    (fun h i => by rw [pay5_blk V c ⟨_, h⟩ _ i, pay2_apply])
    (fun n h acc i _ _ => pay5_blk V c ⟨n, h⟩ acc i) (t.val % 25) (by omega) h' i).trans ?_
  exact zero_add _

/-! ## The accumulator arrays: each half's block is written back once, after its last point -/

/-- A half's share of each channel's sum, as an array. -/
abbrev sumarr (c : Dev nD) : (Sh3 2 1 512).Idx → EReal := fun i => partSum (xin V c) (wtin V c) (i 0).val (i 2)

theorem flushed_sum (c : Dev nD) (t : Fin cfg0.N) (hf : (cfg0.win 3).flush t = true) :
    (dat0 (F := Ideal) V c).flushed 3 t = ((cfg0.win 3).blk t).view.read (Elt Ideal) (sumarr V c) := by
  have h24 : t.val % 25 = 24 := (flush0_3 t).mp hf
  have hN : t.val < 50 := lt_of_lt_of_eq t.isLt N50
  show (cfg0.win 3).cut (grid0.coords t) ((dat0 (F := Ideal) V c).after 3 t) = _
  rw [after0_3]
  funext j
  obtain ⟨a, b, ch, rfl⟩ : ∃ (a b : Fin 1) (ch : Fin 512), j = ix3 a b ch := ⟨j 0, j 1, j 2, eq_ix3 j⟩
  refine (sum_at V c t (ix3 a b ch)).trans ?_
  rw [View.read_apply, h24]
  have ha : a.val = 0 := by have := a.isLt; omega
  have e0 : ((((cfg0.win 3).blk t).view.emb (ix3 a b ch)) 0).val = t.val / 25 := by
    show win0_3.index t 0 * 1 + 1 * a.val = t.val / 25
    rw [(idx0_3 t).1, ha]; omega
  have e2 : ((((cfg0.win 3).blk t).view.emb (ix3 a b ch)) 2) = ch := by
    apply Fin.ext
    show win0_3.index t 2 * 512 + 1 * ch.val = ch.val
    rw [(idx0_3 t).2.2]; omega
  show _ = partSum (xin V c) (wtin V c) ((((cfg0.win 3).blk t).view.emb (ix3 a b ch)) 0).val ((((cfg0.win 3).blk t).view.emb (ix3 a b ch)) 2)
  rw [e0, e2]
  rfl

theorem arr_sum (c : Dev nD) :
    (dat0 (F := Ideal) V c).arrAt 3 cfg0.N = fun i : (Sh3 2 1 512).Idx => partSum (xin V c) (wtin V c) (i 0).val (i 2) :=
  (dat0 (F := Ideal) V c).arrAt_eq_of_cover 3 (sumarr V c) (flushed_sum V c) fun i => by
    have h0 : (i 0).val < 2 := (i 0).isLt
    have h1 : (i 1).val < 1 := (i 1).isLt
    have h2 : (i 2).val < 512 := (i 2).isLt
    have ht : 25 * (i 0).val + 24 < cfg0.N := by rw [N50]; omega
    refine ⟨⟨25 * (i 0).val + 24, ht⟩, (flush0_3 ⟨25 * (i 0).val + 24, ht⟩).mpr (by show (25 * (i 0).val + 24) % 25 = 24; omega), ?_⟩
    show i ∈ ((View.whole main_v2_1).slice (win0_3.rect ⟨25 * (i 0).val + 24, ht⟩)).set
    rw [View.set_slice_whole, Rect.mem_set_unit]
    intro a
    match a with
    | ⟨0, _⟩ =>
      show win0_3.index ⟨25 * (i 0).val + 24, ht⟩ 0 * 1 ≤ (i 0).val
        ∧ (i 0).val < win0_3.index ⟨25 * (i 0).val + 24, ht⟩ 0 * 1 + 1
      rw [(idx0_3 ⟨25 * (i 0).val + 24, ht⟩).1]
      show (25 * (i 0).val + 24) / 25 * 1 ≤ (i 0).val ∧ (i 0).val < (25 * (i 0).val + 24) / 25 * 1 + 1
      omega
    | ⟨1, _⟩ =>
      show win0_3.index ⟨25 * (i 0).val + 24, ht⟩ 1 * 1 ≤ (i 1).val
        ∧ (i 1).val < win0_3.index ⟨25 * (i 0).val + 24, ht⟩ 1 * 1 + 1
      rw [(idx0_3 ⟨25 * (i 0).val + 24, ht⟩).2.1]
      omega
    | ⟨2, _⟩ =>
      show win0_3.index ⟨25 * (i 0).val + 24, ht⟩ 2 * 512 ≤ (i 2).val
        ∧ (i 2).val < win0_3.index ⟨25 * (i 0).val + 24, ht⟩ 2 * 512 + 512
      rw [(idx0_3 ⟨25 * (i 0).val + 24, ht⟩).2.2]
      omega

/-- A half's share of each channel's sum of squares, as an array. -/
abbrev sqarr (c : Dev nD) : (Sh3 2 1 512).Idx → EReal := fun i => partSq (xin V c) (wtin V c) (i 0).val (i 2)

theorem flushed_sq (c : Dev nD) (t : Fin cfg0.N) (hf : (cfg0.win 4).flush t = true) :
    (dat0 (F := Ideal) V c).flushed 4 t = ((cfg0.win 4).blk t).view.read (Elt Ideal) (sqarr V c) := by
  have h24 : t.val % 25 = 24 := (flush0_4 t).mp hf
  have hN : t.val < 50 := lt_of_lt_of_eq t.isLt N50
  show (cfg0.win 4).cut (grid0.coords t) ((dat0 (F := Ideal) V c).after 4 t) = _
  rw [after0_4]
  funext j
  obtain ⟨a, b, ch, rfl⟩ : ∃ (a b : Fin 1) (ch : Fin 512), j = ix3 a b ch := ⟨j 0, j 1, j 2, eq_ix3 j⟩
  refine (sq_at V c t (ix3 a b ch)).trans ?_
  rw [View.read_apply, h24]
  have ha : a.val = 0 := by have := a.isLt; omega
  have e0 : ((((cfg0.win 4).blk t).view.emb (ix3 a b ch)) 0).val = t.val / 25 := by
    show win0_4.index t 0 * 1 + 1 * a.val = t.val / 25
    rw [(idx0_4 t).1, ha]; omega
  have e2 : ((((cfg0.win 4).blk t).view.emb (ix3 a b ch)) 2) = ch := by
    apply Fin.ext
    show win0_4.index t 2 * 512 + 1 * ch.val = ch.val
    rw [(idx0_4 t).2.2]; omega
  show _ = partSq (xin V c) (wtin V c) ((((cfg0.win 4).blk t).view.emb (ix3 a b ch)) 0).val ((((cfg0.win 4).blk t).view.emb (ix3 a b ch)) 2)
  rw [e0, e2]
  rfl

theorem arr_sq (c : Dev nD) :
    (dat0 (F := Ideal) V c).arrAt 4 cfg0.N = fun i : (Sh3 2 1 512).Idx => partSq (xin V c) (wtin V c) (i 0).val (i 2) :=
  (dat0 (F := Ideal) V c).arrAt_eq_of_cover 4 (sqarr V c) (flushed_sq V c) fun i => by
    have h0 : (i 0).val < 2 := (i 0).isLt
    have h1 : (i 1).val < 1 := (i 1).isLt
    have h2 : (i 2).val < 512 := (i 2).isLt
    have ht : 25 * (i 0).val + 24 < cfg0.N := by rw [N50]; omega
    refine ⟨⟨25 * (i 0).val + 24, ht⟩, (flush0_4 ⟨25 * (i 0).val + 24, ht⟩).mpr (by show (25 * (i 0).val + 24) % 25 = 24; omega), ?_⟩
    show i ∈ ((View.whole main_v2_2).slice (win0_4.rect ⟨25 * (i 0).val + 24, ht⟩)).set
    rw [View.set_slice_whole, Rect.mem_set_unit]
    intro a
    match a with
    | ⟨0, _⟩ =>
      show win0_4.index ⟨25 * (i 0).val + 24, ht⟩ 0 * 1 ≤ (i 0).val
        ∧ (i 0).val < win0_4.index ⟨25 * (i 0).val + 24, ht⟩ 0 * 1 + 1
      rw [(idx0_4 ⟨25 * (i 0).val + 24, ht⟩).1]
      show (25 * (i 0).val + 24) / 25 * 1 ≤ (i 0).val ∧ (i 0).val < (25 * (i 0).val + 24) / 25 * 1 + 1
      omega
    | ⟨1, _⟩ =>
      show win0_4.index ⟨25 * (i 0).val + 24, ht⟩ 1 * 1 ≤ (i 1).val
        ∧ (i 1).val < win0_4.index ⟨25 * (i 0).val + 24, ht⟩ 1 * 1 + 1
      rw [(idx0_4 ⟨25 * (i 0).val + 24, ht⟩).2.1]
      omega
    | ⟨2, _⟩ =>
      show win0_4.index ⟨25 * (i 0).val + 24, ht⟩ 2 * 512 ≤ (i 2).val
        ∧ (i 2).val < win0_4.index ⟨25 * (i 0).val + 24, ht⟩ 2 * 512 + 512
      rw [(idx0_4 ⟨25 * (i 0).val + 24, ht⟩).2.2]
      omega

end Cert.KernelIdeal.Stats

end
-- ==== Proof.KApply.lean ====
/-
  The second pass of the kernel, read as values over the extended reals.

  Point `t` of 50 takes rows `1000 t … 1000 t + 999` of the product array `y` (stored in a narrower float format: the
  identity on the extended reals) and the whole `1 × 512` scale and bias rows, and stores the block
  `max z (c · z)`, `z = y · scale[0, ch] + bias[0, ch]`. Every point writes its block back, the 50 blocks tile the 50000
  rows, and each block is the restriction of one function of the array index — so the output array ends at that
  function (`arr_out`).
-/
import proofs.«170566_g2000506936419697_pallasbulk_901_2_alg».proof.Proof.Gen.KernelIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Apply

open Cert.KernelIdeal Cert.KernelIdeal.Gen GroupStats Idealize.ShloMosaic.ValueIdx

variable (V : (c : Dev nD) → (b : Ref sig .tc) → Buf (Elt Ideal) ((c : Thread nD τ).loc b))

/-- The zero offsets of a whole-block access, however spelt. -/
theorem zero_off : (![0, 0] : Fin 2 → Nat) = fun _ => 0 := funext fun a => by fin_cases a <;> rfl

/-- The second pass as one function of the three arrays it reads: at row `r`, channel `ch` the affine map and the
    leaky rectifier of `y[r, ch]` with the channel's scale and bias. -/
abbrev applied (y : (Sh2 50000 512).Idx → EReal) (sc bi : (Sh2 1 512).Idx → EReal) : (Sh2 50000 512).Idx → EReal :=
  fun i => act (y i) (sc (ix2 0 (i 1))) (bi (ix2 0 (i 1)))

/-- A `1 × 512` row spread over 1000 rows, read at row `p`, channel `q`, is the row at channel `q`. -/
theorem row_spread (x : FVec Ideal S1x512 .f32) (p : Fin 1000) (q : Fin 512) :
    broadcastTo S1000x512 x broadcasts_S1x512_S1000x512 (ix2 p q) = x (ix2 0 q) := by
  refine broadcastTo_apply x _ (ix2 p q) (ix2 0 q) fun a => ?_
  match a with
  | ⟨0, _⟩ => rfl
  | ⟨1, _⟩ => rfl

/-- The body's stored value at row `p`, channel `q` of its block: `act` of the block's element there with the
    channel's scale and bias (the widening of the elements is the identity over the extended reals). -/
theorem payload_apply (x0 : Vec Ideal S1000x512 .bf16) (x1 x2 : Vec Ideal S1x512 .f32) (p : Fin 1000) (q : Fin 512) :
    k1_pay1 (F := Ideal) x0 x1 x2 (ix2 p q) = act (x0 (ix2 p q)) (x1 (ix2 0 q)) (x2 (ix2 0 q)) := by
  unfold k1_pay1
  simp only [shapeCast_self]
  show max (x0 (ix2 p q) * broadcastTo S1000x512 x1 broadcasts_S1x512_S1000x512 (ix2 p q)
        + broadcastTo S1000x512 x2 broadcasts_S1x512_S1000x512 (ix2 p q))
      (Ideal.ofBits .f32 0x3DCCCCCD#32 * (x0 (ix2 p q) * broadcastTo S1000x512 x1 broadcasts_S1x512_S1000x512 (ix2 p q)
        + broadcastTo S1000x512 x2 broadcasts_S1x512_S1000x512 (ix2 p q))) = _
  rw [row_spread, row_spread]
  rfl

/-- The same at any index of the block, against values given by equations. -/
theorem payload_eq (x0 : Vec Ideal S1000x512 .bf16) (x1 x2 : Vec Ideal S1x512 .f32) (j : S1000x512.Idx) (a s b : EReal)
    (h0 : x0 j = a) (h1 : x1 (ix2 0 (j 1)) = s) (h2 : x2 (ix2 0 (j 1)) = b) :
    k1_pay1 (F := Ideal) x0 x1 x2 j = act a s b := by
  obtain ⟨p, q, rfl⟩ : ∃ (p : Fin 1000) (q : Fin 512), j = ix2 p q := ⟨j 0, j 1, eq_ix2 j⟩
  subst h0 h1 h2
  exact payload_apply x0 x1 x2 p q

/-- The printed index maps, decided over the grid: the input block of `y` moves with the output's, the scale and
    bias rows stay at block (0, 0), and point `t` writes block `(t, 0)`. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `applied` of the arrays as the region finds them. -/
theorem flushed_eq (c : Dev nD) (t : Fin cfg1.N) :
    (dat1 (F := Ideal) V c).flushed 3 t
      = ((cfg1.win 3).blk t).view.read (Elt Ideal) (applied (V c main_v2_0) (V c main_v28) (V c main_v29)) := by
  show (cfg1.win 3).cut (grid1.coords t) ((dat1 (F := Ideal) V c).after 3 t) = _
  rw [after1_3]
  unfold out1_3
  rw [View.canon_unit_zero zero_off]
  simp only [View.ld_unit_zero (S := S1000x512) zero_off, View.ld_unit_zero (S := S1x512) zero_off]
  obtain ⟨e0, e1, e2, e3, e4, e5, e6, e7⟩ := idx_facts t
  funext j
  refine payload_eq _ _ _ j _ _ _ ?_ ?_ ?_
  · show V c main_v2_0 (((cfg1.win 0).blk t).view.emb j) = V c main_v2_0 (((cfg1.win 3).blk t).view.emb j)
    refine congrArg _ (funext fun a => Fin.ext ?_)
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 512 + 1 * (j 1).val = win1_3.index t (1 : Fin 2) * 512 + 1 * (j 1).val; omega
  · show V c main_v28 (((cfg1.win 1).blk t).view.emb (ix2 0 (j 1))) = V c main_v28 (ix2 0 ((((cfg1.win 3).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 512 + 1 * (j 1).val = win1_3.index t (1 : Fin 2) * 512 + 1 * (j 1).val; omega
  · show V c main_v29 (((cfg1.win 2).blk t).view.emb (ix2 0 (j 1))) = V c main_v29 (ix2 0 ((((cfg1.win 3).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of the output array is in point `t`'s block iff each coordinate is in the block's range on its axis. -/
theorem mem_blk (t : Fin cfg1.N) (i : S50000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v30).slice (win1_3.rect t)).set ↔ _
  rw [View.set_slice_whole, Rect.mem_set_unit]
  exact Iff.rfl

/-- Every index of the output array is in the block of the point its row's thousand names. -/
theorem covered (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 512 ≤ (i 1).val ∧ (i 1).val < win1_3.index t (1 : Fin 2) * 512 + 512; omega

/-- The output array after the second pass: `act` of `y` with the channel's scale and bias, index by index. -/
theorem arr_out (c : Dev nD) :
    (dat1 (F := Ideal) V c).arrAt 3 cfg1.N = fun i : (Sh2 50000 512).Idx =>
      act ((V c main_v2_0 : (Sh2 50000 512).Idx → EReal) i) ((V c main_v28 : (Sh2 1 512).Idx → EReal) (ix2 0 (i 1)))
        ((V c main_v29 : (Sh2 1 512).Idx → EReal) (ix2 0 (i 1))) :=
  (dat1 (F := Ideal) V c).arrAt_eq_of_cover 3 (applied (V c main_v2_0) (V c main_v28) (V c main_v29))
    (fun t _ => flushed_eq V c t) covered

end Cert.KernelIdeal.Apply

end
-- ==== Proof.KHost.lean ====
/-
  The kernel program's host operations, read as values over the extended reals.

  Before the first pass: the weights are transposed and stored in a narrower float format (the identity on the extended
  reals), so the pass finds `tr w`; the rows array is the argument. Between the passes: the two halves' column sums
  `p[half, 0, ch]` are added (a reduction over both leading axes of a `2 × 1 × 512` array from zero:
  `0 + (p[0, 0, ch] + p[1, 0, ch])`) and laid out as 32 groups of 16 channels (row-major: channel `16 g + j`), and the
  group statistics' chain makes of them, of γ and of β the scale and bias rows — operation by operation the
  specification's `scaleOf` and `biasOf`. The product array and the arguments pass through unchanged.
-/
import proofs.«170566_g2000506936419697_pallasbulk_901_2_alg».proof.Proof.Gen.KernelIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen GroupStats Idealize.ShloMosaic.ValueIdx

variable (m : (ℓ : Loc nD τ sig) → Buf (Elt Ideal) ℓ) (ρ : Dev nD → PrngReg)

def wit : GroupStats.Wit :=
  ⟨reducesTo_S32x16_S32_d1, h_S_, bcast_S_S32, bcast_S32_S32x16_0, shapeCasts_S32x16_S512, shapeCasts_S512_S1x512⟩

/-- The first stretch writes neither argument, so region 0 reads the rows as launched. -/
theorem entry_x (c : Dev nD) : V1 (F := Ideal) m ρ c main_arg0 = m ((c : Thread nD τ).loc main_arg0) := by
  show StableHlo.after hostOps0 (W0 (F := Ideal) m ρ c) (Proc.devRef .tc main_arg0) = _
  after_results

theorem entry_wt (c : Dev nD) :
    (V1 (F := Ideal) m ρ c main_v1 : (Sh2 512 512).Idx → EReal) = tr (m ((c : Thread nD τ).loc main_arg1)) := by
  show StableHlo.after hostOps0 (W0 (F := Ideal) m ρ c) (Proc.devRef .tc main_v1) = _
  after_results
  funext i
  -- the narrowing is the identity over the extended reals; the transpose reads the swapped index
  exact transpose_apply _ _ transposes_S512x512_S512x512_1_0 i (ix2 (i 1) (i 0)) fun b =>
    match b with
    | ⟨0, _⟩ => rfl
    | ⟨1, _⟩ => rfl

/-- The two halves' sums added and laid out as 32 groups of 16 channels. -/
def sums (p : (Sh3 2 1 512).Idx → EReal) : FVec Ideal (Sh2 32 16) .f32 :=
  shapeCast S32x16 (Host.reduceAdd (F := Ideal) (φ := .f32) p (constant (F := Ideal) S_ .f32 0x00000000#32) reducesTo_S2x1x512_S512_d0_1 h_S_)
    shapeCasts_S512_S32x16

/-- The sum over both leading axes of a [2, 1, 512] array, read at a channel: the indices that drop to the channel are
    the two halves' entries at the unit axis's only coordinate. -/
theorem reduce_halves (p : (Sh3 2 1 512).Idx → EReal) (ch : Fin 512) :
    (Host.reduceAdd (F := Ideal) (φ := .f32) p (constant (F := Ideal) S_ .f32 0x00000000#32) reducesTo_S2x1x512_S512_d0_1 h_S_
        : (Sh1 512).Idx → EReal) (ix1 ch)
      = p (ix3 0 0 ch) + p (ix3 1 0 ch) := by
  show Ideal.hostReduceAdd reducesTo_S2x1x512_S512_d0_1 p (Ideal.ofBits .f32 0x00000000#32) (ix1 ch) = _
  unfold Ideal.hostReduceAdd
  rw [Ideal.ofBits_zero_f32, zero_add]
  have hf : (Finset.univ.filter fun i : (Sh3 2 1 512).Idx => reducesTo_S2x1x512_S512_d0_1.drop i = ix1 ch)
      = Finset.univ.image (fun core : Fin 2 => (ix3 core (0 : Fin 1) ch : (Sh3 2 1 512).Idx)) := by
    ext i
    simp only [Finset.mem_filter, Finset.mem_univ, true_and, Finset.mem_image]
    constructor
    · intro hi
      refine ⟨i 0, ?_⟩
      have h2 : (i 2).val = ch.val := by
        have := congrArg (fun j : (Sh1 512).Idx => (j 0).val) hi
        exact this
      have h1 : (i 1).val = 0 := by have h : (i 1).val < 1 := (i 1).isLt; omega
      funext a
      match a with
      | ⟨0, _⟩ => rfl
      | ⟨1, _⟩ => exact Fin.ext h1.symm
      | ⟨2, _⟩ => exact Fin.ext h2.symm
    · rintro ⟨core, rfl⟩
      funext b
      match b with
      | ⟨0, _⟩ => rfl
  rw [hf, Finset.sum_image (fun a _ b _ e => by
    have := congrArg (fun j : (Sh3 2 1 512).Idx => j 0) e
    exact this), Fin.sum_univ_two]

theorem sums_apply (p : (Sh3 2 1 512).Idx → EReal) :
    sums p = grp (fun ch => p (ix3 0 0 ch) + p (ix3 1 0 ch)) := by
  funext g
  have h0 : (g 0).val < 32 := (g 0).isLt
  have h1 : (g 1).val < 16 := (g 1).isLt
  -- the reshape reads the channel at the group's row-major position
  refine (shapeCast_apply _ shapeCasts_S512_S32x16 g (ix1 (⟨16 * (g 0).val + (g 1).val, by omega⟩ : Fin 512)) (by
    rw [Shape.rowMajor_val_one, Shape.rowMajor_val_two]
    show 16 * (g 0).val + (g 1).val = (g 0).val * 16 + (g 1).val
    omega)).trans ?_
  exact reduce_halves p _

/-- No operation of the second stretch writes the first pass's product, so the second pass reads what the first left. -/
theorem mid_y (c : Dev nD) : V3 (F := Ideal) m ρ c main_v2_0 = (dat0 (V1 m ρ) c).arrAt 2 cfg0.N := by
  refine Eq.trans ?_ (W2_arr (F := Ideal) m ρ c 2)
  exact StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- What the second stretch reads of the first pass's exit: the two accumulators the pipeline leaves, and the two
    parameter vectors, which nothing before has written. -/
theorem W2_sum (c : Dev nD) :
    W2 (F := Ideal) m ρ c (Proc.devRef .tc main_v2_1) = (dat0 (V1 m ρ) c).arrAt 3 cfg0.N := W2_arr m ρ c 3
theorem W2_sq (c : Dev nD) :
    W2 (F := Ideal) m ρ c (Proc.devRef .tc main_v2_2) = (dat0 (V1 m ρ) c).arrAt 4 cfg0.N := W2_arr m ρ c 4
theorem W2_gamma (c : Dev nD) :
    W2 (F := Ideal) m ρ c (Proc.devRef .tc main_arg2) = m ((c : Thread nD τ).loc main_arg2) :=
  calc W2 (F := Ideal) m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W2_beta (c : Dev nD) :
    W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The scale row the second pass reads: the stretch's operations composed, over the two accumulators the first pass
    leaves and the launched scale vector, are the specification's chain term by term. -/
theorem mid_scale (c : Dev nD) :
    (V3 (F := Ideal) m ρ c main_v28 : (Sh2 1 512).Idx → EReal)
      = scaleOf wit (sums ((dat0 (V1 m ρ) c).arrAt 3 cfg0.N)) (sums ((dat0 (V1 m ρ) c).arrAt 4 cfg0.N))
          (m ((c : Thread nD τ).loc main_arg2)) := by
  show StableHlo.after hostOps1 (W2 (F := Ideal) m ρ c) (Proc.devRef .tc main_v28) = _
  after_results_simp
  rw [W2_sum, W2_sq, W2_gamma]
  generalize (dat0 (V1 (F := Ideal) m ρ) c).arrAt 3 cfg0.N = A3
  generalize (dat0 (V1 (F := Ideal) m ρ) c).arrAt 4 cfg0.N = A4
  generalize m ((c : Thread nD τ).loc main_arg2) = G
  rfl

/-- The bias row likewise, over the launched shift vector besides. -/
theorem mid_bias (c : Dev nD) :
    (V3 (F := Ideal) m ρ c main_v29 : (Sh2 1 512).Idx → EReal)
      = biasOf wit (sums ((dat0 (V1 m ρ) c).arrAt 3 cfg0.N)) (sums ((dat0 (V1 m ρ) c).arrAt 4 cfg0.N))
          (m ((c : Thread nD τ).loc main_arg2)) (m ((c : Thread nD τ).loc main_arg3)) := by
  show StableHlo.after hostOps1 (W2 (F := Ideal) m ρ c) (Proc.devRef .tc main_v29) = _
  after_results_simp
  rw [W2_sum, W2_sq, W2_gamma, W2_beta]
  generalize (dat0 (V1 (F := Ideal) m ρ) c).arrAt 3 cfg0.N = A3
  generalize (dat0 (V1 (F := Ideal) m ρ) c).arrAt 4 cfg0.N = A4
  generalize m ((c : Thread nD τ).loc main_arg2) = G
  generalize m ((c : Thread nD τ).loc main_arg3) = B
  rfl

end Cert.KernelIdeal.Host

end
-- ==== Proof.GroupStatsLaws.lean ====
/-
  Finite-sum laws of the specification over the extended reals (a commutative monoid under addition in which
  zero times anything is zero — nothing below needs a finite value).

  * `lin` sees its rows array only through `rowz` (`lin_congr`), and is zero at a row past the last (`lin_zero_of_le`):
    a zero row times any column is a sum of zeros.
  * `m` consecutive blocks of `n` terms enumerate the first `m · n` terms (`sum_blocks`). Hence the two halves' 25 blocks
    of 1000 rows are the rows 0 … 24999 and 25000 … 49999 and add up to the sum over all 50000 rows (`part_add`,
    `partSq_add`); and 49 blocks of 1024 rows are the rows 0 … 50175, of which the last 176 contribute zero
    (`blockSum_eq`, `blockSq_eq`).
-/
import proofs.«170566_g2000506936419697_pallasbulk_901_2_alg».proof.Proof.GroupStats
import Mathlib.Algebra.BigOperators.Intervals

noncomputable section

namespace GroupStats

open Idealize.ShloMosaic Idealize.ShloMosaic.ValueIdx

/-- `m` consecutive blocks of `n` terms enumerate the first `m * n` terms:
    `Σ_{t<m} Σ_{r<n} f (n·t + r) = Σ_{q<m·n} f q`, by induction on the number of blocks. -/
theorem sum_blocks {M : Type*} [AddCommMonoid M] (f : ℕ → M) (n : ℕ) :
    ∀ m : ℕ, ∑ t ∈ Finset.range m, ∑ r ∈ Finset.range n, f (n * t + r) = ∑ q ∈ Finset.range (m * n), f q
  | 0 => by simp
  | m + 1 => by
    rw [Finset.sum_range_succ, sum_blocks f n m, Nat.succ_mul, Finset.sum_range_add, Nat.mul_comm n m]

theorem lin_congr {n n' : Nat} (x : (Sh2 n 512).Idx → EReal) (x' : (Sh2 n' 512).Idx → EReal) (wt : (Sh2 512 512).Idx → EReal)
    (h : ∀ r k, rowz x r k = rowz x' r k) (r : Nat) (ch : Fin 512) : lin x wt r ch = lin x' wt r ch := by
  unfold lin
  exact Finset.sum_congr rfl fun k _ => by rw [h r k]

theorem lin_zero_of_le {n : Nat} (x : (Sh2 n 512).Idx → EReal) (wt : (Sh2 512 512).Idx → EReal) (r : Nat) (ch : Fin 512)
    (h : n ≤ r) : lin x wt r ch = 0 := by
  unfold lin
  refine Finset.sum_eq_zero fun k _ => ?_
  have hz : rowz x r k = 0 := by
    unfold rowz
    exact dif_neg (Nat.not_lt.mpr h)
  rw [hz, zero_mul]

/-- One half's 25 blocks of 1000 rows are the 25000 rows from row `25000 · half` on. -/
theorem partSum_rows (f : ℕ → EReal) (half : Nat) :
    ∑ s ∈ Finset.range 25, ∑ r ∈ Finset.range 1000, f (1000 * (25 * half + s) + r)
      = ∑ q ∈ Finset.range 25000, f (25000 * half + q) := by
  have hb := sum_blocks (fun q => f (25000 * half + q)) 1000 25
  have h25 : (25 * 1000 : ℕ) = 25000 := by norm_num
  rw [h25] at hb
  rw [← hb]
  refine Finset.sum_congr rfl fun s _ => Finset.sum_congr rfl fun r _ => ?_
  have he : 1000 * (25 * half + s) + r = 25000 * half + (1000 * s + r) := by ring
  rw [he]

/-- The two halves' rows together are the rows below 50000. -/
theorem halves_add (f : ℕ → EReal) :
    (∑ s ∈ Finset.range 25, ∑ r ∈ Finset.range 1000, f (1000 * (25 * 0 + s) + r))
      + (∑ s ∈ Finset.range 25, ∑ r ∈ Finset.range 1000, f (1000 * (25 * 1 + s) + r))
      = ∑ q ∈ Finset.range 50000, f q := by
  have hs := Finset.sum_range_add f 25000 25000
  have h5 : (25000 + 25000 : ℕ) = 50000 := by norm_num
  rw [h5] at hs
  have e0 : ∑ q ∈ Finset.range 25000, f (25000 * 0 + q) = ∑ q ∈ Finset.range 25000, f q :=
    Finset.sum_congr rfl fun q _ => by rw [Nat.mul_zero, Nat.zero_add]
  have e1 : ∑ q ∈ Finset.range 25000, f (25000 * 1 + q) = ∑ q ∈ Finset.range 25000, f (25000 + q) :=
    Finset.sum_congr rfl fun q _ => by rw [Nat.mul_one]
  rw [partSum_rows f 0, partSum_rows f 1, e0, e1]
  exact hs.symm

theorem part_add (x : (Sh2 50000 512).Idx → EReal) (wt : (Sh2 512 512).Idx → EReal) (ch : Fin 512) :
    partSum x wt 0 ch + partSum x wt 1 ch = chanSum x wt ch := by
  unfold partSum chanSum
  exact halves_add (fun q => lin x wt q ch)

theorem partSq_add (x : (Sh2 50000 512).Idx → EReal) (wt : (Sh2 512 512).Idx → EReal) (ch : Fin 512) :
    partSq x wt 0 ch + partSq x wt 1 ch = chanSq x wt ch := by
  unfold partSq chanSq
  exact halves_add (fun q => lin x wt q ch * lin x wt q ch)

/-- The 49 blocks of 1024 rows are the rows below 50176; a summand that vanishes from row 50000 on
    leaves the sum over the rows below 50000. -/
theorem blocks_eq (f : ℕ → EReal) (hf : ∀ q, 50000 ≤ q → f q = 0) :
    ∑ t ∈ Finset.range 49, ∑ r ∈ Finset.range 1024, f (1024 * t + r) = ∑ q ∈ Finset.range 50000, f q := by
  have hb := sum_blocks f 1024 49
  have h49 : (49 * 1024 : ℕ) = 50000 + 176 := by norm_num
  rw [h49, Finset.sum_range_add] at hb
  rw [hb]
  have hz : ∑ q ∈ Finset.range 176, f (50000 + q) = 0 :=
    Finset.sum_eq_zero fun q _ => hf (50000 + q) (Nat.le_add_right 50000 q)
  rw [hz, add_zero]

theorem blockSum_eq (x : (Sh2 50000 512).Idx → EReal) (wt : (Sh2 512 512).Idx → EReal) (ch : Fin 512) :
    blockSum x wt ch = chanSum x wt ch := by
  unfold blockSum chanSum
  exact blocks_eq (fun q => lin x wt q ch) fun q hq => lin_zero_of_le x wt q ch hq

theorem blockSq_eq (x : (Sh2 50000 512).Idx → EReal) (wt : (Sh2 512 512).Idx → EReal) (ch : Fin 512) :
    blockSq x wt ch = chanSq x wt ch := by
  unfold blockSq chanSq
  refine blocks_eq (fun q => lin x wt q ch * lin x wt q ch) fun q hq => ?_
  show lin x wt q ch * lin x wt q ch = 0
  rw [lin_zero_of_le x wt q ch hq, zero_mul]

theorem blockSum_congr {n n' : Nat} (x : (Sh2 n 512).Idx → EReal) (x' : (Sh2 n' 512).Idx → EReal) (wt : (Sh2 512 512).Idx → EReal)
    (h : ∀ r k, rowz x r k = rowz x' r k) (ch : Fin 512) : blockSum x wt ch = blockSum x' wt ch := by
  unfold blockSum
  refine Finset.sum_congr rfl fun t _ => Finset.sum_congr rfl fun r _ => ?_
  exact lin_congr x x' wt h (1024 * t + r) ch

theorem blockSq_congr {n n' : Nat} (x : (Sh2 n 512).Idx → EReal) (x' : (Sh2 n' 512).Idx → EReal) (wt : (Sh2 512 512).Idx → EReal)
    (h : ∀ r k, rowz x r k = rowz x' r k) (ch : Fin 512) : blockSq x wt ch = blockSq x' wt ch := by
  unfold blockSq
  refine Finset.sum_congr rfl fun t _ => Finset.sum_congr rfl fun r _ => ?_
  rw [lin_congr x x' wt h (1024 * t + r) ch]

end GroupStats

end
-- ==== Proof.KValue.lean ====
import proofs.«170566_g2000506936419697_pallasbulk_901_2_alg».proof.Proof.KRun
import proofs.«170566_g2000506936419697_pallasbulk_901_2_alg».proof.Proof.KStats
import proofs.«170566_g2000506936419697_pallasbulk_901_2_alg».proof.Proof.KApply
import proofs.«170566_g2000506936419697_pallasbulk_901_2_alg».proof.Proof.KHost
import proofs.«170566_g2000506936419697_pallasbulk_901_2_alg».proof.Proof.GroupStatsLaws

set_option maxRecDepth 16384

noncomputable section

open Idealize.ShloMosaic Idealize.ShloMosaic.TcCoe Idealize.SL.Sem
open Idealize.ShloMosaic.Pipeline (Dat)

/-! The kernel's program, read whole: the second pass's output array is the specification of the four arguments.
    The second pass reads the first pass's `y` (the linear layer, row by row) and the scale and bias rows the host
    operations between the passes make of the two halves' column sums; the halves' sums add up to the sums over all
    rows (`part_add`), so the chain is fed the specification's group sums. -/

namespace Cert.KernelIdeal.Value

open Cert.KernelIdeal Cert.KernelIdeal.Gen GroupStats Idealize.ShloMosaic.ValueIdx

variable (m : (ℓ : Loc nD τ sig) → Buf (Elt Ideal) ℓ) (ρ : Dev nD → PrngReg)

/-- The two halves' sums, combined by the host, are the group layout of the sums over all rows. -/
theorem sums_sum (x : (Sh2 50000 512).Idx → EReal) (wt : (Sh2 512 512).Idx → EReal) :
    Host.sums (fun i : (Sh3 2 1 512).Idx => partSum x wt (i 0).val (i 2)) = grp (chanSum x wt) := by
  rw [Host.sums_apply]
  exact congrArg grp (funext fun ch => part_add x wt ch)

theorem sums_sq (x : (Sh2 50000 512).Idx → EReal) (wt : (Sh2 512 512).Idx → EReal) :
    Host.sums (fun i : (Sh3 2 1 512).Idx => partSq x wt (i 0).val (i 2)) = grp (chanSq x wt) := by
  rw [Host.sums_apply]
  exact congrArg grp (funext fun ch => partSq_add x wt ch)

/-- The result array at the last boundary is the specification. -/
theorem final (c : Dev nD) :
    (W4 (F := Ideal) m ρ c (Proc.devRef .tc main_v30) : (Sh2 50000 512).Idx → EReal)
      = result Host.wit (m ((c : Thread nD τ).loc main_arg0)) (m ((c : Thread nD τ).loc main_arg1))
          (m ((c : Thread nD τ).loc main_arg2)) (m ((c : Thread nD τ).loc main_arg3)) := by
  refine (W4_arr m ρ c 3).trans ?_
  rw [Apply.arr_out (V3 m ρ) c, Host.mid_y, Host.mid_scale, Host.mid_bias,
    Stats.arr_y (V1 m ρ) c, Stats.arr_sum (V1 m ρ) c, Stats.arr_sq (V1 m ρ) c]
  have hx : Stats.xin (V1 m ρ) c = m ((c : Thread nD τ).loc main_arg0) := Host.entry_x m ρ c
  have hw : Stats.wtin (V1 m ρ) c = tr (m ((c : Thread nD τ).loc main_arg1)) := Host.entry_wt m ρ c
  rw [hx, hw, sums_sum, sums_sq]
  rfl

/-- The run, read: the result array at the specification, the arguments as launched. -/
theorem run : θ_run defs (onTc (τ := τ) (main (F := Ideal))) ⟨m, fun _ => 0, ρ⟩ (fun r => ∀ c : Dev nD,
      r.2.mem ((c.tc : Thread nD τ).loc main_v30)
        = result Host.wit (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m ρ c), (h c).2⟩) (Run.run (F := Ideal) m ρ)

end Cert.KernelIdeal.Value

end
-- ==== Proof.RStats.lean ====
/-
  The first pass of the reference, read as values over the extended reals.

  The pass runs over 49 points; point `t` takes rows `1024 t … 1024 t + 1023` of the zero-padded rows array and the whole of
  the transposed weights, forms the block's product `Σ_k x[1024 t + r, k] · wt[k, ch]` and adds its column sums, and the
  column sums of its squares, into two `1 × 512` accumulators whose block never moves: reset to the zero row at the first
  point, added to what the point before left at every other, written back once after the last point. After point `t`
  an accumulator holds the sum over the blocks `0 … t` (an induction on the point), so the arrays end at the sums over
  all 49 blocks: `blockSum`, `blockSq` (`arr_sum`, `arr_sq`).
-/
import proofs.«170566_g2000506936419697_pallasbulk_901_2_alg».proof.Proof.Gen.ReferenceIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.ReferenceIdeal.Stats

open Cert.ReferenceIdeal Cert.ReferenceIdeal.Gen GroupStats Idealize.ShloMosaic.ValueIdx

variable (V : (c : Dev nD) → (b : Ref sig .tc) → Buf (Elt Ideal) ((c : Thread nD τ).loc b))

/-- The padded rows array and the transposed weights as the first pass finds them. -/
abbrev xin (c : Dev nD) : (Sh2 50176 512).Idx → EReal := V c main_v0
abbrev wtin (c : Dev nD) : (Sh2 512 512).Idx → EReal := V c main_v1

/-! ## What each case leaves in the two accumulators, as the body's payloads -/

section Pieces
variable {F : FTy → Type} [FloatOps F]

theorem hz : (![0, 0] : Fin 2 → Nat) = fun _ => 0 := funext fun a => by fin_cases a <;> rfl

/-- A point after the first leaves, in the sum accumulator holding `xo2`, `xo2` plus the column sums of the
    tile's product. -/
theorem outB2 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : ¬cond0_0 i)
    (x0 : Vec F S1024x512 .f32) (x1 : Vec F S512x512 .f32) (xo2 xo3 : Vec F S1x512 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread,
    View.ld_unit_zero (S := S1024x512) hz, View.ld_unit_zero (S := S512x512) hz, View.ld_unit_zero (S := S1x512) hz]

/-- and in the accumulator of squares holding `xo3`, `xo3` plus the column sums of the product's squares. -/
theorem outB3 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : ¬cond0_0 i)
    (x0 : Vec F S1024x512 .f32) (x1 : Vec F S512x512 .f32) (xo2 xo3 : Vec F S1x512 .f32) :
    out0_B_3 c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread,
    View.ld_unit_zero (S := S1024x512) hz, View.ld_unit_zero (S := S512x512) hz, View.ld_unit_zero (S := S1x512) hz]

/-- The first point stores the zero row, reads it back, and leaves it plus the column sums. -/
theorem outA2 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : cond0_0 i)
    (x0 : Vec F S1024x512 .f32) (x1 : Vec F S512x512 .f32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x512) hz]
  simp only [View.readAt_eq_ld, h1.read_unread, h2.read_unread,
    View.ld_unit_zero (S := S1024x512) hz, View.ld_unit_zero (S := S512x512) hz,
    View.readCov_unit_zero (S := S1x512) _ hz]

theorem outA3 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : cond0_0 i)
    (x0 : Vec F S1024x512 .f32) (x1 : Vec F S512x512 .f32) :
    out0_A_3 c i a1 h1 a2 h2 a3 h3 a4 h4 hc x0 x1 = k0_pay5 x0 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x512) hz]
  simp only [View.readAt_eq_ld, h1.read_unread, h2.read_unread,
    View.ld_unit_zero (S := S1024x512) hz, View.ld_unit_zero (S := S512x512) hz,
    View.readCov_unit_zero (S := S1x512) _ hz]

end Pieces

/-! ## The payloads read at an index, over the extended reals -/

section Arith

/-- The tile's product at row `r`, channel `ch`: the row's product with the weights' column. -/
theorem pay3_apply (x : FVec Ideal S1024x512 .f32) (w : FVec Ideal S512x512 .f32) (r : Fin 1024) (ch : Fin 512) :
    k0_pay3 (F := Ideal) x w (ix2 r ch) = ∑ k : Fin 512, x (ix2 r k) * w (ix2 k ch) := by
  unfold k0_pay3
  refine (Ideal.matmul_constant_zero_apply dot_S1024x512_S512x512_S1024x512_1_0_0_1_n_n none _ _ (ix2 r ch)).trans ?_
  rw [shapeCast_self, shapeCast_self,
    ← Equiv.sum_comp (contrEquiv1 dot_S1024x512_S512x512_S1024x512_1_0_0_1_n_n 512 rfl rfl).symm]
  refine Finset.sum_congr rfl fun k _ => ?_
  have ck := contrEquiv1_symm_val dot_S1024x512_S512x512_S1024x512_1_0_0_1_n_n 512 rfl rfl k
  have l : dot_S1024x512_S512x512_S1024x512_1_0_0_1_n_n.lhsIdx (ix2 r ch)
      ((contrEquiv1 dot_S1024x512_S512x512_S1024x512_1_0_0_1_n_n 512 rfl rfl).symm k) = ix2 r k := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact ck
  have rr : dot_S1024x512_S512x512_S1024x512_1_0_0_1_n_n.rhsIdx (ix2 r ch)
      ((contrEquiv1 dot_S1024x512_S512x512_S1024x512_1_0_0_1_n_n 512 rfl rfl).symm k) = ix2 k ch := by
    funext ax; apply Fin.ext
    match ax with
    | ⟨0, _⟩ => simp [DotDims.rhsIdx, dot_S1024x512_S512x512_S1024x512_1_0_0_1_n_n]; exact ck
    | ⟨1, _⟩ => simp [DotDims.rhsIdx, dot_S1024x512_S512x512_S1024x512_1_0_0_1_n_n]; rfl
  rw [l, rr]

/-- The row a column reduction reads at channel `ch` and reduced coordinate `r` is `(r, ch)`. -/
theorem lift_eq (r : Fin 1024) (ch : Fin 512) :
    reduces_S1024x512_S512.lift (ix1 ch) r = (ix2 r ch : S1024x512.Idx) := by
  funext ax; apply Fin.ext
  match ax with
  | ⟨0, _⟩ => rfl
  | ⟨1, _⟩ => rfl

/-- The sum accumulator's update at channel `ch`: what it held plus the tile's column sum of the product. -/
theorem pay4_apply (x : FVec Ideal S1024x512 .f32) (w : FVec Ideal S512x512 .f32) (acc : FVec Ideal S1x512 .f32) (ch : Fin 512) :
    k0_pay4 (F := Ideal) x w acc (ix2 (0 : Fin 1) ch)
      = acc (ix2 (0 : Fin 1) ch) + ∑ r : Fin 1024, ∑ k : Fin 512, x (ix2 r k) * w (ix2 k ch) := by
  unfold k0_pay4
  refine (addf_apply _ _ (ix2 (0 : Fin 1) ch)).trans ?_
  rw [shapeCast_self]
  refine congrArg (acc (ix2 (0 : Fin 1) ch) + ·) ?_
  refine (shapeCast_a_1a_apply _ _ (0 : Fin 1) ch).trans ?_
  refine (Ideal.multiReduction_add_single (k0_pay3 (F := Ideal) x w) 0x00000000#32 reduces_S1024x512_S512 (.inl rfl) rfl (ix1 ch)).trans ?_
  refine Finset.sum_congr rfl fun r _ => ?_
  rw [lift_eq r ch]
  exact pay3_apply x w r ch

/-- The accumulator of squares likewise, with the product's squares. -/
theorem pay5_apply (x : FVec Ideal S1024x512 .f32) (w : FVec Ideal S512x512 .f32) (acc : FVec Ideal S1x512 .f32) (ch : Fin 512) :
    k0_pay5 (F := Ideal) x w acc (ix2 (0 : Fin 1) ch)
      = acc (ix2 (0 : Fin 1) ch)
        + ∑ r : Fin 1024, (∑ k : Fin 512, x (ix2 r k) * w (ix2 k ch)) * (∑ k : Fin 512, x (ix2 r k) * w (ix2 k ch)) := by
  unfold k0_pay5
  refine (addf_apply _ _ (ix2 (0 : Fin 1) ch)).trans ?_
  rw [shapeCast_self]
  refine congrArg (acc (ix2 (0 : Fin 1) ch) + ·) ?_
  refine (shapeCast_a_1a_apply _ _ (0 : Fin 1) ch).trans ?_
  refine (Ideal.multiReduction_add_single (mulf (k0_pay3 (F := Ideal) x w) (k0_pay3 (F := Ideal) x w)) 0x00000000#32
    reduces_S1024x512_S512 (.inl rfl) rfl (ix1 ch)).trans ?_
  refine Finset.sum_congr rfl fun r _ => ?_
  rw [lift_eq r ch]
  refine (mulf_apply _ _ (ix2 r ch)).trans ?_
  exact congrArg₂ (· * ·) (pay3_apply x w r ch) (pay3_apply x w r ch)

/-- The reset rows are zero. -/
theorem pay1_apply (i : S1x512.Idx) : k0_pay1 (F := Ideal) i = 0 := Ideal.ofBits_zero_f32
theorem pay2_apply (i : S1x512.Idx) : k0_pay2 (F := Ideal) i = 0 := Ideal.ofBits_zero_f32

end Arith

/-! ## The blocks, and what the accumulators hold after each point -/

/-- The rows tile and the weights block the body reads at point `t`. -/
abbrev xblk (c : Dev nD) (t : Fin cfg0.N) : FVec Ideal S1024x512 .f32 := iblk0 (F := Ideal) V c 0 t
abbrev wblk (c : Dev nD) (t : Fin cfg0.N) : FVec Ideal S512x512 .f32 := iblk0 (F := Ideal) V c 1 t

/-- The rows window's block index at point `t` is `(t, 0)`, the weights window's `(0, 0)`. -/
theorem idx0 : ∀ t : Fin cfg0.N, (win0_0.index t 0 = t.val ∧ win0_0.index t 1 = 0) ∧ (win0_1.index t 0 = 0 ∧ win0_1.index t 1 = 0) :=
  (by decide +kernel : ∀ t : Fin grid0.N, (win0_0.index t 0 = t.val ∧ win0_0.index t 1 = 0) ∧ (win0_1.index t 0 = 0 ∧ win0_1.index t 1 = 0))

/-- Row `r` of the tile at point `t` is row `1024 t + r` of the padded array, which lies inside it. -/
theorem xblk_apply (c : Dev nD) (t : Fin cfg0.N) (r : Fin 1024) (k : Fin 512) :
    xblk V c t (ix2 r k) = rowz (xin V c) (1024 * t.val + r.val) k := by
  have hN : t.val < 49 := lt_of_lt_of_eq t.isLt (show cfg0.N = 49 from N_0)
  have hi := (idx0 t).1
  have hlt : 1024 * t.val + r.val < 50176 := by have := r.isLt; omega
  unfold rowz
  rw [dif_pos hlt]
  show iblk0 (F := Ideal) V c 0 t (ix2 r k) = V c main_v0 (ix2 ⟨1024 * t.val + r.val, hlt⟩ k)
  unfold iblk0
  rw [View.read_apply]
  show V c main_v0 _ = V c main_v0 _
  congr 1
  funext a
  apply Fin.ext
  match a with
  | ⟨0, _⟩ => show win0_0.index t 0 * 1024 + 1 * r.val = 1024 * t.val + r.val; rw [hi.1]; omega
  | ⟨1, _⟩ => show win0_0.index t 1 * 512 + 1 * k.val = k.val; rw [hi.2]; omega

/-- The weights block is the whole weights array at every point. -/
theorem wblk_apply (c : Dev nD) (t : Fin cfg0.N) (k ch : Fin 512) :
    wblk V c t (ix2 k ch) = wtin V c (ix2 k ch) := by
  have hi := (idx0 t).2
  show iblk0 (F := Ideal) V c 1 t (ix2 k ch) = V c main_v1 (ix2 k ch)
  unfold iblk0
  rw [View.read_apply]
  show V c main_v1 _ = V c main_v1 _
  congr 1
  funext a
  apply Fin.ext
  match a with
  | ⟨0, _⟩ => show win0_1.index t 0 * 512 + 1 * k.val = k.val; rw [hi.1]; omega
  | ⟨1, _⟩ => show win0_1.index t 1 * 512 + 1 * ch.val = ch.val; rw [hi.2]; omega

/-- The two accumulators after point `n`: the reset rows updated at point 0, then updated point by point. -/
def acc (c : Dev nD) : (n : ℕ) → n < cfg0.N → FVec Ideal S1x512 .f32 × FVec Ideal S1x512 .f32
  | 0, h => (k0_pay4 (xblk V c ⟨0, h⟩) (wblk V c ⟨0, h⟩) (k0_pay1 (F := Ideal)),
      k0_pay5 (xblk V c ⟨0, h⟩) (wblk V c ⟨0, h⟩) (k0_pay2 (F := Ideal)))
  | n + 1, h => (k0_pay4 (xblk V c ⟨n + 1, h⟩) (wblk V c ⟨n + 1, h⟩) (acc c n (Nat.lt_of_succ_lt h)).1,
      k0_pay5 (xblk V c ⟨n + 1, h⟩) (wblk V c ⟨n + 1, h⟩) (acc c n (Nat.lt_of_succ_lt h)).2)

/-- What the staging buffers hold after point `n` is that pair, by induction on the point. -/
theorem outsAt_eq (c : Dev nD) : ∀ (n : ℕ) (h : n < cfg0.N), outsAt0 (F := Ideal) V c n h = acc V c n h
  | 0, h => by
    rw [outsAt0_A V c ⟨0, h⟩ rfl, outA2, outA3]
    rfl
  | n + 1, h => by
    have hN : cfg0.N = 49 := N_0
    have hB : ¬(⟨n + 1, h⟩ : Fin cfg0.N).val % 49 = 0 := by dsimp only; omega
    rw [outsAt0_B V c ⟨n + 1, h⟩ hB, outB2, outB3]
    show (k0_pay4 (xblk V c ⟨n + 1, h⟩) (wblk V c ⟨n + 1, h⟩) (outsAt0 (F := Ideal) V c n (Nat.lt_of_succ_lt h)).1,
        k0_pay5 (xblk V c ⟨n + 1, h⟩) (wblk V c ⟨n + 1, h⟩) (outsAt0 (F := Ideal) V c n (Nat.lt_of_succ_lt h)).2) = _
    rw [outsAt_eq c n (Nat.lt_of_succ_lt h)]
    rfl

/-- A tile's column sum of the product is the block's share of the specification's sum. -/
theorem tile_sum (c : Dev nD) (t : Fin cfg0.N) (ch : Fin 512) :
    (∑ r : Fin 1024, ∑ k : Fin 512, xblk V c t (ix2 r k) * wblk V c t (ix2 k ch))
      = ∑ r ∈ Finset.range 1024, lin (xin V c) (wtin V c) (1024 * t.val + r) ch := by
  rw [← Fin.sum_univ_eq_sum_range (fun r => lin (xin V c) (wtin V c) (1024 * t.val + r) ch) 1024]
  refine Finset.sum_congr rfl fun r _ => ?_
  unfold lin
  refine Finset.sum_congr rfl fun k _ => ?_
  rw [xblk_apply V c t r k, wblk_apply V c t k ch]

theorem tile_sq (c : Dev nD) (t : Fin cfg0.N) (ch : Fin 512) :
    (∑ r : Fin 1024, (∑ k : Fin 512, xblk V c t (ix2 r k) * wblk V c t (ix2 k ch))
        * (∑ k : Fin 512, xblk V c t (ix2 r k) * wblk V c t (ix2 k ch)))
      = ∑ r ∈ Finset.range 1024,
          lin (xin V c) (wtin V c) (1024 * t.val + r) ch * lin (xin V c) (wtin V c) (1024 * t.val + r) ch := by
  rw [← Fin.sum_univ_eq_sum_range
    (fun r => lin (xin V c) (wtin V c) (1024 * t.val + r) ch * lin (xin V c) (wtin V c) (1024 * t.val + r) ch) 1024]
  refine Finset.sum_congr rfl fun r _ => ?_
  have e : (∑ k : Fin 512, xblk V c t (ix2 r k) * wblk V c t (ix2 k ch))
      = lin (xin V c) (wtin V c) (1024 * t.val + r.val) ch := by
    unfold lin
    refine Finset.sum_congr rfl fun k _ => ?_
    rw [xblk_apply V c t r k, wblk_apply V c t k ch]
  rw [e]

/-- So after point `n` the accumulators hold, at channel `ch`, the sums over the blocks `0 … n`. -/
theorem acc_apply (c : Dev nD) (ch : Fin 512) : ∀ (n : ℕ) (h : n < cfg0.N),
    (acc V c n h).1 (ix2 (0 : Fin 1) ch)
        = ∑ s ∈ Finset.range (n + 1), ∑ r ∈ Finset.range 1024, lin (xin V c) (wtin V c) (1024 * s + r) ch
      ∧ (acc V c n h).2 (ix2 (0 : Fin 1) ch)
        = ∑ s ∈ Finset.range (n + 1), ∑ r ∈ Finset.range 1024,
            lin (xin V c) (wtin V c) (1024 * s + r) ch * lin (xin V c) (wtin V c) (1024 * s + r) ch
  | 0, h => by
    constructor
    · refine (pay4_apply (xblk V c ⟨0, h⟩) (wblk V c ⟨0, h⟩) (k0_pay1 (F := Ideal)) ch).trans ?_
      rw [pay1_apply, zero_add, tile_sum V c ⟨0, h⟩ ch, Finset.sum_range_one]
    · refine (pay5_apply (xblk V c ⟨0, h⟩) (wblk V c ⟨0, h⟩) (k0_pay2 (F := Ideal)) ch).trans ?_
      rw [pay2_apply, zero_add, tile_sq V c ⟨0, h⟩ ch, Finset.sum_range_one]
  | n + 1, h => by
    have ih := acc_apply c ch n (Nat.lt_of_succ_lt h)
    constructor
    · refine (pay4_apply (xblk V c ⟨n + 1, h⟩) (wblk V c ⟨n + 1, h⟩) (acc V c n (Nat.lt_of_succ_lt h)).1 ch).trans ?_
      rw [ih.1, tile_sum V c ⟨n + 1, h⟩ ch, Finset.sum_range_succ _ (n + 1)]
    · refine (pay5_apply (xblk V c ⟨n + 1, h⟩) (wblk V c ⟨n + 1, h⟩) (acc V c n (Nat.lt_of_succ_lt h)).2 ch).trans ?_
      rw [ih.2, tile_sq V c ⟨n + 1, h⟩ ch, Finset.sum_range_succ _ (n + 1)]

/-! ## The result arrays: written back once, after the last point -/

/-- The last point. -/
abbrev tLast : Fin cfg0.N := ⟨48, by decide⟩

theorem arr_sum (c : Dev nD) :
    (dat0 (F := Ideal) V c).arrAt 2 cfg0.N = fun i : (Sh2 1 512).Idx => blockSum (xin V c) (wtin V c) (i 1) := by
  refine (dat0 (F := Ideal) V c).arrAt_eq_of_cover 2 (fun i : (Sh2 1 512).Idx => blockSum (xin V c) (wtin V c) (i 1)) ?_ ?_
  · intro t hf
    have hN : cfg0.N = 49 := N_0
    have h48 : t.val = 48 := by have := (flush0_2 t).mp hf; have := t.isLt; omega
    obtain rfl : t = tLast := Fin.ext h48
    show (cfg0.win 2).cut (grid0.coords tLast) ((dat0 (F := Ideal) V c).after 2 tLast) = _
    rw [after0_2, outsAt_eq]
    have hz' : (fun a => win0_2.index tLast a * main_v2_0.ty.shape.size a) = fun _ => 0 := funext fun a => by fin_cases a <;> decide
    refine Eq.trans ?_ (Memref.read_access_unit_zero (Elt Ideal) main_v2_0 hz' (fun a => by rw [congrFun hz' a]; simp)
      (fun i : (Sh2 1 512).Idx => blockSum (xin V c) (wtin V c) (i 1))).symm
    funext i
    obtain ⟨u, ch, rfl⟩ : ∃ (u : Fin 1) (ch : Fin 512), i = ix2 u ch := ⟨i 0, i 1, eq_ix2 i⟩
    obtain rfl : u = 0 := Subsingleton.elim _ _
    exact (acc_apply V c ch 48 _).1
  · intro i
    refine ⟨tLast, (flush0_2 tLast).mpr rfl, ?_⟩
    show i ∈ ((View.whole main_v2_0).slice (win0_2.rect tLast)).set
    rw [View.set_slice_whole, Rect.mem_set_unit]
    intro a
    have h0 : (i 0 : Nat) < 1 := (i 0).isLt
    have h1 : (i 1 : Nat) < 512 := (i 1).isLt
    match a with
    | ⟨0, _⟩ =>
      show win0_2.index tLast 0 * win0_2.size 0 ≤ (i 0 : Nat) ∧ (i 0 : Nat) < win0_2.index tLast 0 * win0_2.size 0 + win0_2.xsize (grid0.coords tLast) 0
      rw [show win0_2.index tLast 0 * win0_2.size 0 = 0 from by decide +kernel, show win0_2.xsize (grid0.coords tLast) 0 = 1 from by decide +kernel]; omega
    | ⟨1, _⟩ =>
      show win0_2.index tLast 1 * win0_2.size 1 ≤ (i 1 : Nat) ∧ (i 1 : Nat) < win0_2.index tLast 1 * win0_2.size 1 + win0_2.xsize (grid0.coords tLast) 1
      rw [show win0_2.index tLast 1 * win0_2.size 1 = 0 from by decide +kernel, show win0_2.xsize (grid0.coords tLast) 1 = 512 from by decide +kernel]; omega

theorem arr_sq (c : Dev nD) :
    (dat0 (F := Ideal) V c).arrAt 3 cfg0.N = fun i : (Sh2 1 512).Idx => blockSq (xin V c) (wtin V c) (i 1) := by
  refine (dat0 (F := Ideal) V c).arrAt_eq_of_cover 3 (fun i : (Sh2 1 512).Idx => blockSq (xin V c) (wtin V c) (i 1)) ?_ ?_
  · intro t hf
    have hN : cfg0.N = 49 := N_0
    have h48 : t.val = 48 := by have := (flush0_3 t).mp hf; have := t.isLt; omega
    obtain rfl : t = tLast := Fin.ext h48
    show (cfg0.win 3).cut (grid0.coords tLast) ((dat0 (F := Ideal) V c).after 3 tLast) = _
    rw [after0_3, outsAt_eq]
    have hz' : (fun a => win0_3.index tLast a * main_v2_1.ty.shape.size a) = fun _ => 0 := funext fun a => by fin_cases a <;> decide
    refine Eq.trans ?_ (Memref.read_access_unit_zero (Elt Ideal) main_v2_1 hz' (fun a => by rw [congrFun hz' a]; simp)
      (fun i : (Sh2 1 512).Idx => blockSq (xin V c) (wtin V c) (i 1))).symm
    funext i
    obtain ⟨u, ch, rfl⟩ : ∃ (u : Fin 1) (ch : Fin 512), i = ix2 u ch := ⟨i 0, i 1, eq_ix2 i⟩
    obtain rfl : u = 0 := Subsingleton.elim _ _
    exact (acc_apply V c ch 48 _).2
  · intro i
    refine ⟨tLast, (flush0_3 tLast).mpr rfl, ?_⟩
    show i ∈ ((View.whole main_v2_1).slice (win0_3.rect tLast)).set
    rw [View.set_slice_whole, Rect.mem_set_unit]
    intro a
    have h0 : (i 0 : Nat) < 1 := (i 0).isLt
    have h1 : (i 1 : Nat) < 512 := (i 1).isLt
    match a with
    | ⟨0, _⟩ =>
      show win0_3.index tLast 0 * win0_3.size 0 ≤ (i 0 : Nat) ∧ (i 0 : Nat) < win0_3.index tLast 0 * win0_3.size 0 + win0_3.xsize (grid0.coords tLast) 0
      rw [show win0_3.index tLast 0 * win0_3.size 0 = 0 from by decide +kernel, show win0_3.xsize (grid0.coords tLast) 0 = 1 from by decide +kernel]; omega
    | ⟨1, _⟩ =>
      show win0_3.index tLast 1 * win0_3.size 1 ≤ (i 1 : Nat) ∧ (i 1 : Nat) < win0_3.index tLast 1 * win0_3.size 1 + win0_3.xsize (grid0.coords tLast) 1
      rw [show win0_3.index tLast 1 * win0_3.size 1 = 0 from by decide +kernel, show win0_3.xsize (grid0.coords tLast) 1 = 512 from by decide +kernel]; omega

end Cert.ReferenceIdeal.Stats

end
-- ==== Proof.RApply.lean ====
/-
  The second pass of the reference, read as values over the extended reals.

  Point `t` of 49 takes rows `1024 t … 1024 t + 1023` of the zero-padded rows array, the whole of the transposed weights
  and the whole `1 × 512` scale and bias rows, recomputes the block's product `Σ_k x[1024 t + r, k] · wt[k, ch]` (the
  specification's `lin` at that row, every row of the padded array being below 50176) and stores
  `max z (c · z)`, `z = y · scale[0, ch] + bias[0, ch]`. Every point writes its block back, the 49 blocks tile the 50176
  rows, and each block is the restriction of one function of the array index — so the output array ends at that
  function (`arr_out`).
-/
import proofs.«170566_g2000506936419697_pallasbulk_901_2_alg».proof.Proof.Gen.ReferenceIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.ReferenceIdeal.Apply

open Cert.ReferenceIdeal Cert.ReferenceIdeal.Gen GroupStats Idealize.ShloMosaic.ValueIdx

variable (V : (c : Dev nD) → (b : Ref sig .tc) → Buf (Elt Ideal) ((c : Thread nD τ).loc b))

/-- The zero offsets of a whole-block access, however spelt. -/
theorem zero_off : (![0, 0] : Fin 2 → Nat) = fun _ => 0 := funext fun a => by fin_cases a <;> rfl

/-- The second pass as one function of the four arrays it reads: at row `r`, channel `ch` the affine map and the
    leaky rectifier of the linear layer's value `Σ_k x[r, k] · wt[k, ch]` with the channel's scale and bias. -/
abbrev applied (x : (Sh2 50176 512).Idx → EReal) (wt : (Sh2 512 512).Idx → EReal) (sc bi : (Sh2 1 512).Idx → EReal) :
    (Sh2 50176 512).Idx → EReal :=
  fun i => act (lin x wt (i 0).val (i 1)) (sc (ix2 0 (i 1))) (bi (ix2 0 (i 1)))

/-- The product's operand indices, axis by axis: the left operand is read at (row of the output, contraction
    position), the right one at (contraction position, column of the output). -/
theorem lhs_row (j : S1024x512.Idx) (k : dot_S1024x512_S512x512_S1024x512_1_0_0_1_n_n.contr.Idx) :
    (dot_S1024x512_S512x512_S1024x512_1_0_0_1_n_n.lhsIdx j k 0).val = (j 0).val := rfl
theorem lhs_contr (j : S1024x512.Idx) (k : dot_S1024x512_S512x512_S1024x512_1_0_0_1_n_n.contr.Idx) :
    (dot_S1024x512_S512x512_S1024x512_1_0_0_1_n_n.lhsIdx j k 1).val = (k ⟨0, by decide⟩).val := rfl
theorem rhs_contr (j : S1024x512.Idx) (k : dot_S1024x512_S512x512_S1024x512_1_0_0_1_n_n.contr.Idx) :
    (dot_S1024x512_S512x512_S1024x512_1_0_0_1_n_n.rhsIdx j k 0).val = (k ⟨0, by decide⟩).val := rfl
theorem rhs_col (j : S1024x512.Idx) (k : dot_S1024x512_S512x512_S1024x512_1_0_0_1_n_n.contr.Idx) :
    (dot_S1024x512_S512x512_S1024x512_1_0_0_1_n_n.rhsIdx j k 1).val = (j 1).val := rfl

/-- The product into the zero accumulator at row `p`, column `q`: the sum over the 512 contraction positions of
    the operands' products. -/
theorem matmul_at (x : FVec Ideal S1024x512 .f32) (w : FVec Ideal S512x512 .f32) (p : Fin 1024) (q : Fin 512) :
    matmul dot_S1024x512_S512x512_S1024x512_1_0_0_1_n_n none x w (constant (F := Ideal) S1024x512 .f32 0x00000000#32) (ix2 p q)
      = ∑ k : Fin 512, x (ix2 p k) * w (ix2 k q) := by
  refine (Ideal.matmul_constant_zero_apply dot_S1024x512_S512x512_S1024x512_1_0_0_1_n_n none x w (ix2 p q)).trans ?_
  refine (Equiv.sum_comp (contrEquiv1 dot_S1024x512_S512x512_S1024x512_1_0_0_1_n_n 512 rfl rfl).symm _).symm.trans ?_
  refine Finset.sum_congr rfl fun k _ => ?_
  have hk := contrEquiv1_symm_val dot_S1024x512_S512x512_S1024x512_1_0_0_1_n_n 512 rfl rfl k
  congr 1
  · refine congrArg x (funext fun a => Fin.ext ?_)
    match a with
    | ⟨0, _⟩ => exact lhs_row _ _
    | ⟨1, _⟩ => exact (lhs_contr _ _).trans hk
  · refine congrArg w (funext fun a => Fin.ext ?_)
    match a with
    | ⟨0, _⟩ => exact (rhs_contr _ _).trans hk
    | ⟨1, _⟩ => exact rhs_col _ _

/-- A `1 × 512` row spread over 1024 rows, read at row `p`, channel `q`, is the row at channel `q`. -/
theorem row_spread (x : FVec Ideal S1x512 .f32) (p : Fin 1024) (q : Fin 512) :
    broadcastTo S1024x512 x broadcasts_S1x512_S1024x512 (ix2 p q) = x (ix2 0 q) := by
  refine broadcastTo_apply x _ (ix2 p q) (ix2 0 q) fun a => ?_
  match a with
  | ⟨0, _⟩ => rfl
  | ⟨1, _⟩ => rfl

/-- The body's stored value at row `p`, channel `q` of its block: `act` of the row's product with column `q` of the
    weights, with the channel's scale and bias. -/
theorem payload_apply (x0 : Vec Ideal S1024x512 .f32) (x1 : Vec Ideal S512x512 .f32) (x2 x3 : Vec Ideal S1x512 .f32)
    (p : Fin 1024) (q : Fin 512) :
    k1_pay1 (F := Ideal) x0 x1 x2 x3 (ix2 p q)
      = act (∑ k : Fin 512, x0 (ix2 p k) * x1 (ix2 k q)) (x2 (ix2 0 q)) (x3 (ix2 0 q)) := by
  unfold k1_pay1
  simp only [shapeCast_self]
  show max (matmul dot_S1024x512_S512x512_S1024x512_1_0_0_1_n_n none x0 x1 (constant (F := Ideal) S1024x512 .f32 0x00000000#32) (ix2 p q)
          * broadcastTo S1024x512 x2 broadcasts_S1x512_S1024x512 (ix2 p q)
        + broadcastTo S1024x512 x3 broadcasts_S1x512_S1024x512 (ix2 p q))
      (Ideal.ofBits .f32 0x3DCCCCCD#32
        * (matmul dot_S1024x512_S512x512_S1024x512_1_0_0_1_n_n none x0 x1 (constant (F := Ideal) S1024x512 .f32 0x00000000#32) (ix2 p q)
          * broadcastTo S1024x512 x2 broadcasts_S1x512_S1024x512 (ix2 p q)
        + broadcastTo S1024x512 x3 broadcasts_S1x512_S1024x512 (ix2 p q))) = _
  rw [matmul_at, row_spread, row_spread]
  rfl

/-- The same at any index of the block, against a row of the padded input, a column of the weights and a scale and
    bias given by equations. -/
theorem payload_eq (x0 : Vec Ideal S1024x512 .f32) (x1 : Vec Ideal S512x512 .f32) (x2 x3 : Vec Ideal S1x512 .f32)
    (j : S1024x512.Idx) (x : (Sh2 50176 512).Idx → EReal) (wt : (Sh2 512 512).Idx → EReal) (r : Nat) (ch : Fin 512)
    (s b : EReal) (h0 : ∀ k : Fin 512, x0 (ix2 (j 0) k) = rowz x r k) (h1 : ∀ k : Fin 512, x1 (ix2 k (j 1)) = wt (ix2 k ch))
    (h2 : x2 (ix2 0 (j 1)) = s) (h3 : x3 (ix2 0 (j 1)) = b) :
    k1_pay1 (F := Ideal) x0 x1 x2 x3 j = act (lin x wt r ch) s b := by
  obtain ⟨p, q, rfl⟩ : ∃ (p : Fin 1024) (q : Fin 512), j = ix2 p q := ⟨j 0, j 1, eq_ix2 j⟩
  subst h2 h3
  refine (payload_apply x0 x1 x2 x3 p q).trans ?_
  unfold lin
  refine congrArg (fun y => act y _ _) (Finset.sum_congr rfl fun k _ => ?_)
  exact congrArg₂ (· * ·) (h0 k) (h1 k)

/-- The printed index maps, decided over the grid: the input block of `x` moves with the output's, the weights and
    the scale and bias rows stay at block (0, 0), and point `t` writes block `(t, 0)`. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `applied` of the arrays as the region finds them. -/
theorem flushed_eq (c : Dev nD) (t : Fin cfg1.N) :
    (dat1 (F := Ideal) V c).flushed 4 t
      = ((cfg1.win 4).blk t).view.read (Elt Ideal) (applied (V c main_v0) (V c main_v1) (V c main_v26) (V c main_v27)) := by
  show (cfg1.win 4).cut (grid1.coords t) ((dat1 (F := Ideal) V c).after 4 t) = _
  rw [after1_4]
  unfold out1_4
  rw [View.canon_unit_zero zero_off]
  simp only [View.ld_unit_zero (S := S1024x512) zero_off, View.ld_unit_zero (S := S512x512) zero_off,
    View.ld_unit_zero (S := S1x512) zero_off]
  obtain ⟨e0, e1, e2, e3, e4, e5, e6, e7, e8, e9⟩ := idx_facts t
  funext j
  refine payload_eq _ _ _ _ j (V c main_v0) (V c main_v1) ((((cfg1.win 4).blk t).view.emb j) 0).val
    ((((cfg1.win 4).blk t).view.emb j) 1) _ _ (fun k => ?_) (fun k => ?_) ?_ ?_
  · unfold rowz
    rw [dif_pos (show ((((cfg1.win 4).blk t).view.emb j) 0).val < 50176 from ((((cfg1.win 4).blk t).view.emb j) 0).isLt)]
    show V c main_v0 (((cfg1.win 0).blk t).view.emb (ix2 (j 0) k)) = V c main_v0 _
    refine congrArg _ (funext fun a => Fin.ext ?_)
    match a with
    | ⟨0, _⟩ => show win1_0.index t (0 : Fin 2) * 1024 + 1 * (j 0).val = win1_4.index t (0 : Fin 2) * 1024 + 1 * (j 0).val; omega
    | ⟨1, _⟩ => show win1_0.index t (1 : Fin 2) * 512 + 1 * k.val = k.val; omega
  · show V c main_v1 (((cfg1.win 1).blk t).view.emb (ix2 k (j 1))) = V c main_v1 (ix2 k ((((cfg1.win 4).blk t).view.emb j) 1))
    refine congrArg _ (funext fun a => Fin.ext ?_)
    match a with
    | ⟨0, _⟩ => show win1_1.index t (0 : Fin 2) * 512 + 1 * k.val = k.val; omega
    | ⟨1, _⟩ => show win1_1.index t (1 : Fin 2) * 512 + 1 * (j 1).val = win1_4.index t (1 : Fin 2) * 512 + 1 * (j 1).val; omega
  · show V c main_v26 (((cfg1.win 2).blk t).view.emb (ix2 0 (j 1))) = V c main_v26 (ix2 0 ((((cfg1.win 4).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_4.index t (1 : Fin 2) * 512 + 1 * (j 1).val; omega
  · show V c main_v27 (((cfg1.win 3).blk t).view.emb (ix2 0 (j 1))) = V c main_v27 (ix2 0 ((((cfg1.win 4).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * (j 1).val = win1_4.index t (1 : Fin 2) * 512 + 1 * (j 1).val; omega

/-- An index of the output array is in point `t`'s block iff each coordinate is in the block's range on its axis. -/
theorem mem_blk (t : Fin cfg1.N) (i : S50176x512.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v28).slice (win1_4.rect t)).set ↔ _
  rw [View.set_slice_whole, Rect.mem_set_unit]
  exact Iff.rfl

/-- Every index of the output array is in the block of the point its row's quotient by 1024 names. -/
theorem covered (i : S50176x512.Idx) :
    ∃ t : Fin cfg1.N, (cfg1.win 4).flush t = true ∧ i ∈ ((cfg1.win 4).blk t).view.set := by
  have hi0 : (i 0).val < 50176 := (i 0).isLt
  have hi1 : (i 1).val < 512 := (i 1).isLt
  have hN : cfg1.N = 49 := N_1
  obtain ⟨t, ht⟩ : ∃ t : Fin cfg1.N, t.val = (i 0).val / 1024 := ⟨⟨(i 0).val / 1024, by rw [hN]; omega⟩, rfl⟩
  obtain ⟨-, -, -, -, -, -, -, -, e8, e9⟩ := idx_facts t
  refine ⟨t, flush1_4 t, ?_⟩
  rw [mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

/-- The output array after the second pass: `act` of the linear layer's value with the channel's scale and bias,
    index by index. -/
theorem arr_out (c : Dev nD) :
    (dat1 (F := Ideal) V c).arrAt 4 cfg1.N = fun i : (Sh2 50176 512).Idx =>
      act (lin (V c main_v0 : (Sh2 50176 512).Idx → EReal) (V c main_v1 : (Sh2 512 512).Idx → EReal) (i 0).val (i 1))
        ((V c main_v26 : (Sh2 1 512).Idx → EReal) (ix2 0 (i 1)))
        ((V c main_v27 : (Sh2 1 512).Idx → EReal) (ix2 0 (i 1))) :=
  (dat1 (F := Ideal) V c).arrAt_eq_of_cover 4 (applied (V c main_v0) (V c main_v1) (V c main_v26) (V c main_v27))
    (fun t _ => flushed_eq V c t) covered

end Cert.ReferenceIdeal.Apply

end
-- ==== Proof.RHost.lean ====
/-
  The reference program's host operations, read as values over the extended reals.

  Before the first pass: the rows array is padded with 176 rows of the value `0` (an integer zero converted), so a row
  of the padded array is the argument's row read as zero past the last one (`entry_xpad`: `rowz` agrees on both, and past
  row 50176 both are zero by definition); the weights are transposed. Between the passes: the `1 × 512` sums are laid
  out as 32 groups of 16 channels (row-major: channel `16 g + j`) and the group statistics' chain makes of them, of γ
  and of β the scale and bias rows — operation by operation the specification's `scaleOf` and `biasOf`; the padded
  rows and the transposed weights pass through unchanged. After the second pass: the result is rows `0 … 49999` of its
  output array (`tail`).
-/
import proofs.«170566_g2000506936419697_pallasbulk_901_2_alg».proof.Proof.Gen.ReferenceIdeal.Frame
import proofs.«170566_g2000506936419697_pallasbulk_901_2_alg».proof.Proof.GroupStats
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

open Idealize.ShloMosaic Idealize.ShloMosaic.TcCoe Idealize.SL.Sem
open Idealize.ShloMosaic.Pipeline (Dat)

namespace Cert.ReferenceIdeal.Host

open Cert.ReferenceIdeal Cert.ReferenceIdeal.Gen GroupStats Idealize.ShloMosaic.ValueIdx

variable (m : (ℓ : Loc nD τ sig) → Buf (Elt Ideal) ℓ) (ρ : Dev nD → PrngReg)

def wit : GroupStats.Wit :=
  ⟨reducesTo_S32x16_S32_d1, h_S_, bcast_S_S32, bcast_S32_S32x16_0, shapeCasts_S32x16_S512, shapeCasts_S512_S1x512⟩

/-- At the first pass's entry the padded array is the argument padded by 176 rows of the converted integer zero. -/
theorem V3_v0 (c : Dev nD) :
    (V3 (F := Ideal) m ρ c main_v0 : S50176x512.Idx → EReal)
      = pad S50176x512 ![0, 0] ![176, 0] ![0, 0] (m ((c : Thread nD τ).loc main_arg0) : S50000x512.Idx → EReal)
          (sitofp (F := Ideal) .f32 (constantI S_ 32 0#32) : S_.Idx → EReal)
          pads_S50000x512_S50176x512_01760_000 h_S_ := by
  show StableHlo.after hostOps0_2 (StableHlo.after hostOps0_1 (StableHlo.after hostOps0 (W0 m ρ c)))
    (Proc.devRef .tc main_v0) = _
  after_results <;> rfl

/-- The padded array's rows are the argument's, zero past row 50000. -/
theorem entry_xpad (c : Dev nD) (r : Nat) (k : Fin 512) :
    rowz (V3 (F := Ideal) m ρ c main_v0 : (Sh2 50176 512).Idx → EReal) r k
      = rowz (m ((c : Thread nD τ).loc main_arg0) : (Sh2 50000 512).Idx → EReal) r k := by
  rw [V3_v0]
  unfold rowz
  by_cases h1 : r < 50000
  · -- a row of the argument: the padding is all behind it
    have h2 : r < 50176 := by omega
    rw [dif_pos h1, dif_pos h2]
    exact pad_apply_of_inside _ _ _ _ _ pads_S50000x512_S50176x512_01760_000 h_S_ (ix2 ⟨r, h2⟩ k) (ix2 ⟨r, h1⟩ k)
      (fun a => match a with
        | ⟨0, _⟩ => by show r = 0 + r * (0 + 1); omega
        | ⟨1, _⟩ => by show k.val = 0 + k.val * (0 + 1); omega)
  · rw [dif_neg h1]
    by_cases h2 : r < 50176
    · -- a padding row: the padding value, the integer zero converted
      rw [dif_pos h2]
      refine (pad_apply_of_not_inside _ _ _ _ _ pads_S50000x512_S50176x512_01760_000 h_S_ (ix2 ⟨r, h2⟩ k) 0 ?_).trans ?_
      · show ¬(0 ≤ r ∧ (r - 0) % (0 + 1) = 0 ∧ (r - 0) / (0 + 1) < 50000)
        omega
      · exact sitofp_zero (φ := .f32)
    · rw [dif_neg h2]

theorem entry_wt (c : Dev nD) :
    (V3 (F := Ideal) m ρ c main_v1 : (Sh2 512 512).Idx → EReal) = tr (m ((c : Thread nD τ).loc main_arg1)) := by
  have h : V3 (F := Ideal) m ρ c main_v1
      = transpose S512x512 [1, 0] (m ((c : Thread nD τ).loc main_arg1)) transposes_S512x512_S512x512_1_0 := by
    show StableHlo.after hostOps0_2 (StableHlo.after hostOps0_1 (StableHlo.after hostOps0 (W0 m ρ c)))
      (Proc.devRef .tc main_v1) = _
    after_results
  rw [h]
  funext i
  exact transpose_apply [1, 0] _ transposes_S512x512_S512x512_1_0 i (ix2 (i 1) (i 0))
    (fun b => match b with | ⟨0, _⟩ => rfl | ⟨1, _⟩ => rfl)

/-- Neither the first pass nor the host operations after it write the padded rows or the transposed weights. -/
theorem mid_x (c : Dev nD) : V5 (F := Ideal) m ρ c main_v0 = V3 m ρ c main_v0 :=
  calc W5 (F := Ideal) m ρ c (Proc.devRef .tc main_v0)
    _ = W4 m ρ c (Proc.devRef .tc main_v0) :=
        StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = (dat0 (V3 m ρ) c).arrAt 0 cfg0.N := W4_arr m ρ c 0
    _ = (dat0 (V3 m ρ) c).A 0 := Pipeline.Dat.arrAt_in _ 0 rfl _
    _ = V3 m ρ c main_v0 := A_eq0 (V3 m ρ) c 0
theorem mid_wt (c : Dev nD) : V5 (F := Ideal) m ρ c main_v1 = V3 m ρ c main_v1 :=
  calc W5 (F := Ideal) m ρ c (Proc.devRef .tc main_v1)
    _ = W4 m ρ c (Proc.devRef .tc main_v1) :=
        StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = (dat0 (V3 m ρ) c).arrAt 1 cfg0.N := W4_arr m ρ c 1
    _ = (dat0 (V3 m ρ) c).A 1 := Pipeline.Dat.arrAt_in _ 1 rfl _
    _ = V3 m ρ c main_v1 := A_eq0 (V3 m ρ) c 1

/-- A `1 × 512` row laid out as 32 groups of 16 channels. -/
theorem regroup (f : Fin 512 → EReal) :
    shapeCast S32x16 (fun i : (Sh2 1 512).Idx => f (i 1)) shapeCasts_S1x512_S32x16 = grp f := by
  funext g
  have h0 : (g 0).val < 32 := (g 0).isLt
  have h1 : (g 1).val < 16 := (g 1).isLt
  -- group g, channel j of the group sits at row-major position 16 g + j of the one row
  refine (shapeCast_apply _ shapeCasts_S1x512_S32x16 g
    (ix2 (0 : Fin 1) (⟨16 * (g 0).val + (g 1).val, by omega⟩ : Fin 512)) ?_).trans rfl
  rw [Shape.rowMajor_val_two, Shape.rowMajor_val_two]
  show 0 * 512 + (16 * (g 0).val + (g 1).val) = (g 0).val * 16 + (g 1).val
  omega

/-- The argument is as launched when the first pass ends: neither the pass nor a host operation before it writes it. -/
theorem W4_main_arg2 (c : Dev nD) :
    W4 (F := Ideal) m ρ c (Proc.devRef .tc main_arg2) = m ((c : Thread nD τ).loc main_arg2) :=
  calc W4 (F := Ideal) m ρ c (Proc.devRef .tc main_arg2)
    _ = W3 m ρ c (Proc.devRef .tc main_arg2) := W4_of_ne m ρ c main_arg2 (by decide)
    _ = W2 m ρ c (Proc.devRef .tc main_arg2) :=
        StableHlo.after_of_forall_not_mem (b := Proc.devRef .tc main_arg2) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W1 m ρ c (Proc.devRef .tc main_arg2) :=
        StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W0 m ρ c (Proc.devRef .tc main_arg2) :=
        StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg2) := rfl
/-- The argument is as launched when the first pass ends: neither the pass nor a host operation before it writes it. -/
theorem W4_main_arg3 (c : Dev nD) :
    W4 (F := Ideal) m ρ c (Proc.devRef .tc main_arg3) = m ((c : Thread nD τ).loc main_arg3) :=
  calc W4 (F := Ideal) m ρ c (Proc.devRef .tc main_arg3)
    _ = W3 m ρ c (Proc.devRef .tc main_arg3) := W4_of_ne m ρ c main_arg3 (by decide)
    _ = W2 m ρ c (Proc.devRef .tc main_arg3) :=
        StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W1 m ρ c (Proc.devRef .tc main_arg3) :=
        StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W0 m ρ c (Proc.devRef .tc main_arg3) :=
        StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg3) := rfl

/-- The host operations between the two passes, run from ANY buffer contents `V`: the scale row they leave is the
    specification's chain over the two statistics rows and γ as `V` holds them. -/
theorem after_hostOps1_scale (V : Valuation τ sig (Elt Ideal)) :
    (StableHlo.after hostOps1 V (Proc.devRef .tc main_v26) : (Sh2 1 512).Idx → EReal)
      = scaleOf wit (shapeCast S32x16 (V (Proc.devRef .tc main_v2_0)) shapeCasts_S1x512_S32x16)
          (shapeCast S32x16 (V (Proc.devRef .tc main_v2_1)) shapeCasts_S1x512_S32x16)
          (V (Proc.devRef .tc main_arg2)) := by
  after_results_simp
  rfl

/-- Likewise the bias row, over the two statistics rows, γ and β. -/
theorem after_hostOps1_bias (V : Valuation τ sig (Elt Ideal)) :
    (StableHlo.after hostOps1 V (Proc.devRef .tc main_v27) : (Sh2 1 512).Idx → EReal)
      = biasOf wit (shapeCast S32x16 (V (Proc.devRef .tc main_v2_0)) shapeCasts_S1x512_S32x16)
          (shapeCast S32x16 (V (Proc.devRef .tc main_v2_1)) shapeCasts_S1x512_S32x16)
          (V (Proc.devRef .tc main_arg2)) (V (Proc.devRef .tc main_arg3)) := by
  after_results_simp
  rfl

theorem mid_scale (c : Dev nD) :
    (V5 (F := Ideal) m ρ c main_v26 : (Sh2 1 512).Idx → EReal)
      = scaleOf wit (shapeCast S32x16 ((dat0 (V3 m ρ) c).arrAt 2 cfg0.N) shapeCasts_S1x512_S32x16)
          (shapeCast S32x16 ((dat0 (V3 m ρ) c).arrAt 3 cfg0.N) shapeCasts_S1x512_S32x16)
          (m ((c : Thread nD τ).loc main_arg2)) := by
  show StableHlo.after hostOps1 (W4 m ρ c) (Proc.devRef .tc main_v26) = _
  rw [after_hostOps1_scale,
    show W4 (F := Ideal) m ρ c (Proc.devRef .tc main_v2_0) = _ from W4_arr m ρ c 2,
    show W4 (F := Ideal) m ρ c (Proc.devRef .tc main_v2_1) = _ from W4_arr m ρ c 3, W4_main_arg2]

theorem mid_bias (c : Dev nD) :
    (V5 (F := Ideal) m ρ c main_v27 : (Sh2 1 512).Idx → EReal)
      = biasOf wit (shapeCast S32x16 ((dat0 (V3 m ρ) c).arrAt 2 cfg0.N) shapeCasts_S1x512_S32x16)
          (shapeCast S32x16 ((dat0 (V3 m ρ) c).arrAt 3 cfg0.N) shapeCasts_S1x512_S32x16)
          (m ((c : Thread nD τ).loc main_arg2)) (m ((c : Thread nD τ).loc main_arg3)) := by
  show StableHlo.after hostOps1 (W4 m ρ c) (Proc.devRef .tc main_v27) = _
  rw [after_hostOps1_bias,
    show W4 (F := Ideal) m ρ c (Proc.devRef .tc main_v2_0) = _ from W4_arr m ρ c 2,
    show W4 (F := Ideal) m ρ c (Proc.devRef .tc main_v2_1) = _ from W4_arr m ρ c 3, W4_main_arg2, W4_main_arg3]

/-- The result is the first 50000 rows of the second pass's output array. -/
theorem tail (c : Dev nD) :
    (W7 (F := Ideal) m ρ c (Proc.devRef .tc main_v29) : (Sh2 50000 512).Idx → EReal)
      = fun i => ((dat1 (V5 m ρ) c).arrAt 4 cfg1.N : (Sh2 50176 512).Idx → EReal)
          (ix2 ⟨(i 0).val, Nat.lt_trans (i 0).isLt (by decide)⟩ (i 1)) := by
  have h : W7 (F := Ideal) m ρ c (Proc.devRef .tc main_v29)
      = extractStridedSlice S50000x512 ![0, 0] ((dat1 (V5 m ρ) c).arrAt 4 cfg1.N : S50176x512.Idx → EReal)
          slices_S50176x512_S50000x512_0_0 := by
    show StableHlo.after hostOps2 (W6 m ρ c) (Proc.devRef .tc main_v29) = _
    after_results
    rw [show W6 (F := Ideal) m ρ c (Proc.devRef .tc main_v28) = _ from W6_arr m ρ c 4]
  rw [h]
  funext i
  -- the slice starts at row 0, column 0: the same coordinates
  exact extractStridedSlice_apply (s := S50176x512) ![0, 0]
    ((dat1 (V5 m ρ) c).arrAt 4 cfg1.N : S50176x512.Idx → EReal) slices_S50176x512_S50000x512_0_0 i
    (ix2 ⟨(i 0).val, Nat.lt_trans (i 0).isLt (by decide)⟩ (i 1))
    (fun a => match a with
      | ⟨0, _⟩ => by show (i 0).val = 0 + (i 0).val; omega
      | ⟨1, _⟩ => by show (i 1).val = 0 + (i 1).val; omega)

end Cert.ReferenceIdeal.Host

end
-- ==== Proof.RValue.lean ====
import proofs.«170566_g2000506936419697_pallasbulk_901_2_alg».proof.Proof.RRun
import proofs.«170566_g2000506936419697_pallasbulk_901_2_alg».proof.Proof.RStats
import proofs.«170566_g2000506936419697_pallasbulk_901_2_alg».proof.Proof.RApply
import proofs.«170566_g2000506936419697_pallasbulk_901_2_alg».proof.Proof.RHost
import proofs.«170566_g2000506936419697_pallasbulk_901_2_alg».proof.Proof.GroupStatsLaws

set_option maxRecDepth 16384

noncomputable section

open Idealize.ShloMosaic Idealize.ShloMosaic.TcCoe Idealize.SL.Sem
open Idealize.ShloMosaic.Pipeline (Dat)

/-! The reference's program, read whole: its result — the first 50000 rows of the second pass's output over the
    zero-padded rows — is the specification of the four arguments. A padded row is the argument's row read as zero past
    the last one, so the linear layer over the padded array is the specification's `lin`; the 49 blocks of 1024 rows sum
    to the sums over all rows (`blockSum_eq`: the 176 extra rows contribute zero). -/

namespace Cert.ReferenceIdeal.Value

open Cert.ReferenceIdeal Cert.ReferenceIdeal.Gen GroupStats Idealize.ShloMosaic.ValueIdx

variable (m : (ℓ : Loc nD τ sig) → Buf (Elt Ideal) ℓ) (ρ : Dev nD → PrngReg)

/-- The result array at the last boundary is the specification. -/
theorem final (c : Dev nD) :
    (W7 (F := Ideal) m ρ c (Proc.devRef .tc main_v29) : (Sh2 50000 512).Idx → EReal)
      = result Host.wit (m ((c : Thread nD τ).loc main_arg0)) (m ((c : Thread nD τ).loc main_arg1))
          (m ((c : Thread nD τ).loc main_arg2)) (m ((c : Thread nD τ).loc main_arg3)) := by
  have hw : Stats.wtin (V3 m ρ) c = tr (m ((c : Thread nD τ).loc main_arg1)) := Host.entry_wt m ρ c
  have hw' : (V3 (F := Ideal) m ρ c main_v1 : (Sh2 512 512).Idx → EReal) = tr (m ((c : Thread nD τ).loc main_arg1)) := Host.entry_wt m ρ c
  have hS : blockSum (Stats.xin (V3 m ρ) c) (Stats.wtin (V3 m ρ) c)
      = chanSum (m ((c : Thread nD τ).loc main_arg0)) (tr (m ((c : Thread nD τ).loc main_arg1))) := funext fun ch => by
    rw [hw, blockSum_congr _ (m ((c : Thread nD τ).loc main_arg0)) _ (Host.entry_xpad m ρ c) ch, blockSum_eq]
  have hQ : blockSq (Stats.xin (V3 m ρ) c) (Stats.wtin (V3 m ρ) c)
      = chanSq (m ((c : Thread nD τ).loc main_arg0)) (tr (m ((c : Thread nD τ).loc main_arg1))) := funext fun ch => by
    rw [hw, blockSq_congr _ (m ((c : Thread nD τ).loc main_arg0)) _ (Host.entry_xpad m ρ c) ch, blockSq_eq]
  rw [Host.tail, Apply.arr_out (V5 m ρ) c, Host.mid_scale, Host.mid_bias, Host.mid_x, Host.mid_wt,
    Stats.arr_sum (V3 m ρ) c, Stats.arr_sq (V3 m ρ) c, Host.regroup, Host.regroup, hS, hQ, hw']
  funext i
  exact congrArg (fun y => act y _ _)
    (lin_congr (V3 (F := Ideal) m ρ c main_v0 : (Sh2 50176 512).Idx → EReal) (m ((c : Thread nD τ).loc main_arg0))
      (tr (m ((c : Thread nD τ).loc main_arg1))) (Host.entry_xpad m ρ c) (i 0).val (i 1))

/-- The run, read: the result array at the specification, the arguments as launched. -/
theorem run : θ_run defs (onTc (τ := τ) (main (F := Ideal))) ⟨m, fun _ => 0, ρ⟩ (fun r => ∀ c : Dev nD,
      r.2.mem ((c.tc : Thread nD τ).loc main_v29)
        = result Host.wit (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m ρ c), (h c).2⟩) (Run.run (F := Ideal) m ρ)

end Cert.ReferenceIdeal.Value

end
-- ==== Proof.lean ====
/- The certificate of the group-normalised linear layer: `leaky (groupnorm (x · wᵀ) · γ + β)` over f32[50000, 512].

   The kernel computes `y = x · wᵀ` once, tile by tile (50 tiles of 1000 rows on a 2 × 25 grid), keeping per half the
   column sums of `y` and of `y²`; the host adds the two halves, forms per group of 16 channels the mean and the
   variance over `50000 · 16` values, and from them a per-channel scale and bias; a second pass maps `y` to
   `max z (c · z)`, `z = y · scale + bias`. The reference pads `x` with 176 zero rows, sums 49 tiles of 1024 rows
   into one accumulator, recomputes the product in its second pass and keeps the first 50000 rows.

   Over the extended reals both are ONE function of the arguments (`GroupStats.result`): a zero row times anything is
   zero, so the padded rows add nothing to either sum, and a sum of column sums over any tiling of the rows is the sum
   over all rows (addition on the extended reals is commutative and associative; nothing here needs the inputs to be
   finite). Each program's run is read against that function (`KernelIdeal.Value.run`, `ReferenceIdeal.Value.run`); the
   three frames are the generated ones, and the idealization rewrote nothing. -/
import proofs.«170566_g2000506936419697_pallasbulk_901_2_alg».proof.Defs
import proofs.«170566_g2000506936419697_pallasbulk_901_2_alg».proof.Proof.Gen.Kernel
import proofs.«170566_g2000506936419697_pallasbulk_901_2_alg».proof.Proof.Gen.Kernel.Skeleton
import proofs.«170566_g2000506936419697_pallasbulk_901_2_alg».proof.Proof.Gen.Kernel.Launch
import proofs.«170566_g2000506936419697_pallasbulk_901_2_alg».proof.Proof.Gen.Kernel.Points
import proofs.«170566_g2000506936419697_pallasbulk_901_2_alg».proof.Proof.Gen.Kernel.Frame
import proofs.«170566_g2000506936419697_pallasbulk_901_2_alg».proof.Proof.Gen.KernelIdeal
import proofs.«170566_g2000506936419697_pallasbulk_901_2_alg».proof.Proof.Gen.KernelIdeal.Skeleton
import proofs.«170566_g2000506936419697_pallasbulk_901_2_alg».proof.Proof.Gen.KernelIdeal.Launch
import proofs.«170566_g2000506936419697_pallasbulk_901_2_alg».proof.Proof.Gen.KernelIdeal.Points
import proofs.«170566_g2000506936419697_pallasbulk_901_2_alg».proof.Proof.Gen.KernelIdeal.Frame
import proofs.«170566_g2000506936419697_pallasbulk_901_2_alg».proof.Proof.Gen.ReferenceIdeal
import proofs.«170566_g2000506936419697_pallasbulk_901_2_alg».proof.Proof.Gen.ReferenceIdeal.Skeleton
import proofs.«170566_g2000506936419697_pallasbulk_901_2_alg».proof.Proof.Gen.ReferenceIdeal.Launch
import proofs.«170566_g2000506936419697_pallasbulk_901_2_alg».proof.Proof.Gen.ReferenceIdeal.Points
import proofs.«170566_g2000506936419697_pallasbulk_901_2_alg».proof.Proof.Gen.ReferenceIdeal.Frame
import proofs.«170566_g2000506936419697_pallasbulk_901_2_alg».proof.Proof.Gen.Pre_finite_inputs
import proofs.«170566_g2000506936419697_pallasbulk_901_2_alg».proof.Proof.KValue
import proofs.«170566_g2000506936419697_pallasbulk_901_2_alg».proof.Proof.RValue
import Idealize.ShloMosaic.Adequacy
import Idealize.ShloMosaic.Init

noncomputable section

namespace Cert.Proof

open Idealize.ShloMosaic Idealize.SL.Sem

/-- At the extended reals the kernel's result array and the reference's are the same function of arguments that
    agree: both runs end at `GroupStats.result` of the four argument arrays. -/
theorem algebraic : Cert.algebraic_KernelIdeal_ReferenceIdeal := by
  intro m ρ m' ρ' _ hagree
  refine ⟨fun c => GroupStats.result Cert.KernelIdeal.Host.wit
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Value.run m ρ, ?_⟩
  refine (θ_run Cert.ReferenceIdeal.defs _ _).mono (fun _ h c => ⟨(h c).1.trans ?_, (h c).2⟩)
    (Cert.ReferenceIdeal.Value.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
